-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x512 : Shape := ⟨3, ![64, 64, 512]⟩
abbrev S64x64x64x512 : Shape := ⟨4, ![64, 64, 64, 512]⟩
abbrev S64x512x2 : Shape := ⟨3, ![64, 512, 2]⟩
abbrev S_ : Shape := ⟨0, ![]⟩

class Facts : Prop where
  bcast_S_S64x64x512 : S_.BroadcastsInDim S64x64x512 (![] : Fin 0 → Fin S64x64x512.rank)
  reducesTo_S64x64x512_S_d0_1_2 : S64x64x512.ReducesTo [0, 1, 2] S_
  h_S_ : 0 < S_.numel
  bcast_S_S64x64x64x512 : S_.BroadcastsInDim S64x64x64x512 (![] : Fin 0 → Fin S64x64x64x512.rank)
  reducesTo_S64x64x64x512_S_d0_1_2_3 : S64x64x64x512.ReducesTo [0, 1, 2, 3] S_
  bcast_S_S64x512x2 : S_.BroadcastsInDim S64x512x2 (![] : Fin 0 → Fin S64x512x2.rank)
  reducesTo_S64x512x2_S_d0_1_2 : S64x512x2.ReducesTo [0, 1, 2] S_

variable [Facts]

def fn_part1 {F : FTy → Type} [FloatOps F] (main_arg3 : IVec S64x512x2 32) (main_v13 : IVec S_ 1) (main_v15 : IVec S64x512x2 1) (main_c_5 : IVec S_ 32) : IVec S_ 1 :=
  let main_v16 : IVec S64x512x2 32 := broadcastInDim S64x512x2 ![] bcast_S_S64x512x2 main_c_5
  let main_v17 : IVec S64x512x2 1 := cmpi .slt main_arg3 main_v16
  let main_v18 : IVec S64x512x2 1 := andi main_v15 main_v17
  let main_c_6 : IVec S_ 1 := constantI S_ 1 1#1
  let main_v19 : IVec S_ 1 := (fun x v => Host.reduce IntOp.andi x v reducesTo_S64x512x2_S_d0_1_2 h_S_) main_v18 main_c_6
  let main_v20 : IVec S_ 1 := andi main_v13 main_v19
  main_v20

def fn {F : FTy → Type} [FloatOps F] (main_arg0 : FVec F S64x64x512 .f32) (main_arg1 : FVec F S64x64x512 .f32) (main_arg2 : FVec F S64x64x64x512 .f32) (main_arg3 : IVec S64x512x2 32) : IVec S_ 1 :=
  let main_v0 : FVec F S64x64x512 .f32 := Host.absf main_arg0
  let main_cst : FVec F S_ .f32 := constant S_ .f32 0x7F800000#32
  let main_v1 : FVec F S64x64x512 .f32 := broadcastInDim S64x64x512 ![] bcast_S_S64x64x512 main_cst
  let main_v2 : IVec S64x64x512 1 := cmpf .olt main_v0 main_v1
  let main_c : IVec S_ 1 := constantI S_ 1 1#1
  let main_v3 : IVec S_ 1 := (fun x v => Host.reduce IntOp.andi x v reducesTo_S64x64x512_S_d0_1_2 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S64x64x64x512 .f32 := Host.absf main_arg2
  let main_cst_2 : FVec F S_ .f32 := constant S_ .f32 0x7F800000#32
  let main_v10 : FVec F S64x64x64x512 .f32 := broadcastInDim S64x64x64x512 ![] bcast_S_S64x64x64x512 main_cst_2
  let main_v11 : IVec S64x64x64x512 1 := cmpf .olt main_v9 main_v10
  let main_c_3 : IVec S_ 1 := constantI S_ 1 1#1
  let main_v12 : IVec S_ 1 := (fun x v => Host.reduce IntOp.andi x v reducesTo_S64x64x64x512_S_d0_1_2_3 h_S_) main_v11 main_c_3
  let main_v13 : IVec S_ 1 := andi main_v8 main_v12
  let main_c_4 : IVec S_ 32 := constantI S_ 32 0#32
  let main_v14 : IVec S64x512x2 32 := broadcastInDim S64x512x2 ![] bcast_S_S64x512x2 main_c_4
  let main_v15 : IVec S64x512x2 1 := cmpi .sge main_arg3 main_v14
  let main_c_5 : IVec S_ 32 := constantI S_ 32 64#32
  fn_part1 (F := F) main_arg3 main_v13 main_v15 main_c_5
-- ==== Kernel.lean ====
abbrev S64x64x512 : Shape := ⟨3, ![64, 64, 512]⟩
abbrev S64x64x64x512 : Shape := ⟨4, ![64, 64, 64, 512]⟩
abbrev S64x512x2 : Shape := ⟨3, ![64, 512, 2]⟩
abbrev S64x512x1536 : Shape := ⟨3, ![64, 512, 1536]⟩
abbrev S1x64x512 : Shape := ⟨3, ![1, 64, 512]⟩
abbrev S1x64x64x512 : Shape := ⟨4, ![1, 64, 64, 512]⟩
abbrev S1x256x2 : Shape := ⟨3, ![1, 256, 2]⟩
abbrev S1x256x1536 : Shape := ⟨3, ![1, 256, 1536]⟩
abbrev S1x256x1 : Shape := ⟨3, ![1, 256, 1]⟩
abbrev S256x1 : Shape := ⟨2, ![256, 1]⟩
abbrev S1x64 : Shape := ⟨2, ![1, 64]⟩
abbrev S256x64 : Shape := ⟨2, ![256, 64]⟩
abbrev S64x512 : Shape := ⟨2, ![64, 512]⟩
abbrev S256x512 : Shape := ⟨2, ![256, 512]⟩
abbrev S256x1024 : Shape := ⟨2, ![256, 1024]⟩
abbrev S4096x512 : Shape := ⟨2, ![4096, 512]⟩
abbrev S1x4096 : Shape := ⟨2, ![1, 4096]⟩
abbrev S256x4096 : Shape := ⟨2, ![256, 4096]⟩
abbrev S256x1536 : Shape := ⟨2, ![256, 1536]⟩

abbrev nBuf : Space → Nat
  | .hbm => 5
  | .vmem => 10
  | .smem => 0
  | _ => 0

abbrev bufTy : (tb : Table) → Fin (tcTables nBuf tb) → BufTy
  | .hbm, ⟨0, _⟩ => ⟨S64x64x512, .f32⟩
  | .hbm, ⟨1, _⟩ => ⟨S64x64x512, .f32⟩
  | .hbm, ⟨2, _⟩ => ⟨S64x64x64x512, .f32⟩
  | .hbm, ⟨3, _⟩ => ⟨S64x512x2, .i32⟩
  | .hbm, ⟨4, _⟩ => ⟨S64x512x1536, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x64x512, .f32⟩
  | .local _ .vmem, ⟨5, _⟩ => ⟨S1x64x64x512, .f32⟩
  | .local _ .vmem, ⟨6, _⟩ => ⟨S1x256x2, .i32⟩
  | .local _ .vmem, ⟨7, _⟩ => ⟨S1x256x2, .i32⟩
  | .local _ .vmem, ⟨8, _⟩ => ⟨S1x256x1536, .f32⟩
  | .local _ .vmem, ⟨9, _⟩ => ⟨S1x256x1536, .f32⟩
  | _, _ => ⟨S64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x2_S1x256x1_0_0_0 : ∀ a, (![0, 0, 0] : Fin 3 → Nat) a + S1x256x1.size a ≤ S1x256x2.size a
  h_S1x256x1 : 0 < S1x256x1.numel
  shapeCasts_S1x256x1_S256x1 : S1x256x1.ShapeCasts S256x1
  inb_S1x256x2_S1x256x1_0_0_1 : ∀ a, (![0, 0, 1] : Fin 3 → Nat) a + S1x256x1.size a ≤ S1x256x2.size a
  iota_S1x64_d1_w32 : S1x64.Iotas .tc 32 [1]
  broadcasts_S256x1_S256x64 : S256x1.Broadcasts S256x64
  broadcasts_S1x64_S256x64 : S1x64.Broadcasts S256x64
  natLt_1_32 : 1 < 32
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  concatenates_S256x512_S256x512_S256x1024_d1 : Shape.Concatenates [S256x512, S256x512] S256x1024 1
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  shapeCasts_S64x64x512_S4096x512 : S64x64x512.ShapeCasts S4096x512
  iota_S1x4096_d1_w32 : S1x4096.Iotas .tc 32 [1]
  broadcasts_S256x1_S256x4096 : S256x1.Broadcasts S256x4096
  broadcasts_S1x4096_S256x4096 : S1x4096.Broadcasts S256x4096
  concatenates_S256x1024_S256x512_S256x1536_d1 : Shape.Concatenates [S256x1024, S256x512] S256x1536 1
  inb_S1x256x1536_S1x256x1536_0_0_0 : ∀ a, (![0, 0, 0] : Fin 3 → Nat) a + S1x256x1536.size a ≤ S1x256x1536.size a
  h_S1x256x1536 : 0 < S1x256x1536.numel
  shapeCasts_S1x256x1536_S256x1536 : S1x256x1536.ShapeCasts S256x1536
  shapeCasts_S256x1536_S1x256x1536 : S256x1536.ShapeCasts S1x256x1536
  dot_S256x64_S64x512_S256x512_1_0_0_1_n_n_wf : DotDims.WF S256x64 S64x512 S256x512 [1] [0] [0] [1] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S64x64x512.size a
  hwx0_0 : ∀ i : grid0.Coords, EltTy.bits .f32 = 32 ∨ (Rect.block (s := S64x64x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S64x64x512.size a
  hwx0_1 : ∀ i : grid0.Coords, EltTy.bits .f32 = 32 ∨ (Rect.block (s := S64x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x512.size a ≤ S64x64x64x512.size a
  hwx0_2 : ∀ i : grid0.Coords, EltTy.bits .f32 = 32 ∨ (Rect.block (s := S64x64x64x512) S1x64x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2.size a ≤ S64x512x2.size a
  hwx0_3 : ∀ i : grid0.Coords, EltTy.bits .i32 = 32 ∨ (Rect.block (s := S64x512x2) S1x256x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1536.size a ≤ S64x512x1536.size a
  hwx0_4 : ∀ i : grid0.Coords, EltTy.bits .f32 = 32 ∨ (Rect.block (s := S64x512x1536) S1x256x1536.size (cc0_transform_4 i) (hinb0_4 i)).WholeWords (EltTy.packing .f32)

variable [Facts₀]

def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x1536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x64x512 : Shape := ⟨3, ![64, 64, 512]⟩
abbrev S64x64x64x512 : Shape := ⟨4, ![64, 64, 64, 512]⟩
abbrev S64x512x2 : Shape := ⟨3, ![64, 512, 2]⟩
abbrev S64x512x1 : Shape := ⟨3, ![64, 512, 1]⟩
abbrev S64x512 : Shape := ⟨2, ![64, 512]⟩
abbrev S64 : Shape := ⟨1, ![64]⟩
abbrev S64x1 : Shape := ⟨2, ![64, 1]⟩
abbrev S_ : Shape := ⟨0, ![]⟩
abbrev S64x512x3 : Shape := ⟨3, ![64, 512, 3]⟩
abbrev S64x512x512 : Shape := ⟨3, ![64, 512, 512]⟩
abbrev S64x512x1024 : Shape := ⟨3, ![64, 512, 1024]⟩
abbrev S64x512x1536 : Shape := ⟨3, ![64, 512, 1536]⟩

abbrev nBuf : Space → Nat
  | .hbm => 151
  | .vmem => 0
  | .smem => 0
  | _ => 0

abbrev hbmTy0_0 (i : Nat) : BufTy := match i % 128 with
  | 0 => ⟨S64x64x512, .f32⟩
  | 1 => ⟨S64x64x512, .f32⟩
  | 2 => ⟨S64x64x64x512, .f32⟩
  | 3 => ⟨S64x512x2, .i32⟩
  | 4 => ⟨S64x512x1, .i32⟩
  | 5 => ⟨S64x512, .i32⟩
  | 6 => ⟨S64x512x1, .i32⟩
  | 7 => ⟨S64x512, .i32⟩
  | 8 => ⟨S64, .i32⟩
  | 9 => ⟨S64x1, .i32⟩
  | 10 => ⟨S_, .i32⟩
  | 11 => ⟨S64x1, .i32⟩
  | 12 => ⟨S64x1, .i1⟩
  | 13 => ⟨S_, .i32⟩
  | 14 => ⟨S64x1, .i32⟩
  | 15 => ⟨S64x1, .i32⟩
  | 16 => ⟨S64x1, .i32⟩
  | 17 => ⟨S_, .i32⟩
  | 18 => ⟨S64x512, .i32⟩
  | 19 => ⟨S64x512, .i1⟩
  | 20 => ⟨S_, .i32⟩
  | 21 => ⟨S64x512, .i32⟩
  | 22 => ⟨S64x512, .i32⟩
  | 23 => ⟨S64x512, .i32⟩
  | 24 => ⟨S_, .i32⟩
  | 25 => ⟨S64x512, .i32⟩
  | 26 => ⟨S64x512, .i1⟩
  | 27 => ⟨S_, .i32⟩
  | 28 => ⟨S64x512, .i32⟩
  | 29 => ⟨S64x512, .i32⟩
  | 30 => ⟨S64x512, .i32⟩
  | 31 => ⟨S64x512, .i32⟩
  | 32 => ⟨S64x512x1, .i32⟩
  | 33 => ⟨S64x512x1, .i32⟩
  | 34 => ⟨S64x512x1, .i32⟩
  | 35 => ⟨S64x512x3, .i32⟩
  | 36 => ⟨S64x512x512, .f32⟩
  | 37 => ⟨S_, .i32⟩
  | 38 => ⟨S64x1, .i32⟩
  | 39 => ⟨S64x1, .i1⟩
  | 40 => ⟨S_, .i32⟩
  | 41 => ⟨S64x1, .i32⟩
  | 42 => ⟨S64x1, .i32⟩
  | 43 => ⟨S64x1, .i32⟩
  | 44 => ⟨S_, .i32⟩
  | 45 => ⟨S64x512, .i32⟩
  | 46 => ⟨S64x512, .i1⟩
  | 47 => ⟨S_, .i32⟩
  | 48 => ⟨S64x512, .i32⟩
  | 49 => ⟨S64x512, .i32⟩
  | 50 => ⟨S64x512, .i32⟩
  | 51 => ⟨S_, .i32⟩
  | 52 => ⟨S64x512, .i32⟩
  | 53 => ⟨S64x512, .i1⟩
  | 54 => ⟨S_, .i32⟩
  | 55 => ⟨S64x512, .i32⟩
  | 56 => ⟨S64x512, .i32⟩
  | 57 => ⟨S64x512, .i32⟩
  | 58 => ⟨S64x512, .i32⟩
  | 59 => ⟨S64x512x1, .i32⟩
  | 60 => ⟨S64x512x1, .i32⟩
  | 61 => ⟨S64x512x1, .i32⟩
  | 62 => ⟨S64x512x3, .i32⟩
  | 63 => ⟨S64x512x512, .f32⟩
  | 64 => ⟨S64x512x512, .f32⟩
  | 65 => ⟨S_, .f32⟩
  | 66 => ⟨S64x512x512, .f32⟩
  | 67 => ⟨S64x512x512, .f32⟩
  | 68 => ⟨S_, .i32⟩
  | 69 => ⟨S64x1, .i32⟩
  | 70 => ⟨S64x1, .i1⟩
  | 71 => ⟨S_, .i32⟩
  | 72 => ⟨S64x1, .i32⟩
  | 73 => ⟨S64x1, .i32⟩
  | 74 => ⟨S64x1, .i32⟩
  | 75 => ⟨S_, .i32⟩
  | 76 => ⟨S64x512, .i32⟩
  | 77 => ⟨S64x512, .i1⟩
  | 78 => ⟨S_, .i32⟩
  | 79 => ⟨S64x512, .i32⟩
  | 80 => ⟨S64x512, .i32⟩
  | 81 => ⟨S64x512, .i32⟩
  | 82 => ⟨S64x512, .i32⟩
  | 83 => ⟨S64x512x1, .i32⟩
  | 84 => ⟨S64x512x1, .i32⟩
  | 85 => ⟨S64x512x2, .i32⟩
  | 86 => ⟨S64x512x512, .f32⟩
  | 87 => ⟨S_, .i32⟩
  | 88 => ⟨S64x1, .i32⟩
  | 89 => ⟨S64x1, .i1⟩
  | 90 => ⟨S_, .i32⟩
  | 91 => ⟨S64x1, .i32⟩
  | 92 => ⟨S64x1, .i32⟩
  | 93 => ⟨S64x1, .i32⟩
  | 94 => ⟨S_, .i32⟩
  | 95 => ⟨S64x512, .i32⟩
  | 96 => ⟨S64x512, .i1⟩
  | 97 => ⟨S_, .i32⟩
  | 98 => ⟨S64x512, .i32⟩
  | 99 => ⟨S64x512, .i32⟩
  | 100 => ⟨S64x512, .i32⟩
  | 101 => ⟨S64x512, .i32⟩
  | 102 => ⟨S64x512x1, .i32⟩
  | 103 => ⟨S64x512x1, .i32⟩
  | 104 => ⟨S64x512x2, .i32⟩
  | 105 => ⟨S64x512x512, .f32⟩
  | 106 => ⟨S64x512x1024, .f32⟩
  | 107 => ⟨S_, .i32⟩
  | 108 => ⟨S64x1, .i32⟩
  | 109 => ⟨S64x1, .i1⟩
  | 110 => ⟨S_, .i32⟩
  | 111 => ⟨S64x1, .i32⟩
  | 112 => ⟨S64x1, .i32⟩
  | 113 => ⟨S64x1, .i32⟩
  | 114 => ⟨S_, .i32⟩
  | 115 => ⟨S64x512, .i32⟩
  | 116 => ⟨S64x512, .i1⟩
  | 117 => ⟨S_, .i32⟩
  | 118 => ⟨S64x512, .i32⟩
  | 119 => ⟨S64x512, .i32⟩
  | 120 => ⟨S64x512, .i32⟩
  | 121 => ⟨S64x512, .i32⟩
  | 122 => ⟨S64x512x1, .i32⟩
  | 123 => ⟨S64x512x1, .i32⟩
  | 124 => ⟨S64x512x2, .i32⟩
  | 125 => ⟨S64x512x512, .f32⟩
  | 126 => ⟨S_, .i32⟩
  | 127 => ⟨S64x1, .i32⟩
  | _ => ⟨S64x64x512, .f32⟩

abbrev hbmTy0_1 (i : Nat) : BufTy := match i % 128 with
  | 0 => ⟨S64x1, .i1⟩
  | 1 => ⟨S_, .i32⟩
  | 2 => ⟨S64x1, .i32⟩
  | 3 => ⟨S64x1, .i32⟩
  | 4 => ⟨S64x1, .i32⟩
  | 5 => ⟨S_, .i32⟩
  | 6 => ⟨S64x512, .i32⟩
  | 7 => ⟨S64x512, .i1⟩
  | 8 => ⟨S_, .i32⟩
  | 9 => ⟨S64x512, .i32⟩
  | 10 => ⟨S64x512, .i32⟩
  | 11 => ⟨S64x512, .i32⟩
  | 12 => ⟨S64x512, .i32⟩
  | 13 => ⟨S64x512x1, .i32⟩
  | 14 => ⟨S64x512x1, .i32⟩
  | 15 => ⟨S64x512x2, .i32⟩
  | 16 => ⟨S64x512x512, .f32⟩
  | 17 => ⟨S64x512x1024, .f32⟩
  | 18 => ⟨S64x512x1024, .f32⟩
  | 19 => ⟨S_, .f32⟩
  | 20 => ⟨S64x512x1024, .f32⟩
  | 21 => ⟨S64x512x1024, .f32⟩
  | 22 => ⟨S64x512x1536, .f32⟩
  | _ => ⟨S64x64x512, .f32⟩

abbrev hbmTy (i : Nat) : BufTy := match i / 128 with
  | 0 => hbmTy0_0 i
  | 1 => hbmTy0_1 i
  | _ => ⟨S64x64x512, .f32⟩

abbrev bufTy : (tb : Table) → Fin (tcTables nBuf tb) → BufTy
  | .hbm, ⟨i, _⟩ => hbmTy i
  | _, _ => ⟨S64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst : Ref sig .tc := ⟨.hbm, 65, rfl⟩
abbrev main_v49 : Ref sig .tc := ⟨.hbm, 66, rfl⟩
abbrev main_v50 : Ref sig .tc := ⟨.hbm, 67, rfl⟩
abbrev main_c_11 : Ref sig .tc := ⟨.hbm, 68, rfl⟩
abbrev main_v51 : Ref sig .tc := ⟨.hbm, 69, rfl⟩
abbrev main_v52 : Ref sig .tc := ⟨.hbm, 70, rfl⟩
abbrev main_c_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_c_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_15 : Ref sig .tc := ⟨.hbm, 87, rfl⟩
abbrev main_v66 : Ref sig .tc := ⟨.hbm, 88, rfl⟩
abbrev main_v67 : Ref sig .tc := ⟨.hbm, 89, rfl⟩
abbrev main_c_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_17 : Ref sig .tc := ⟨.hbm, 94, rfl⟩
abbrev main_v71 : Ref sig .tc := ⟨.hbm, 95, rfl⟩
abbrev main_v72 : Ref sig .tc := ⟨.hbm, 96, rfl⟩
abbrev main_c_18 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_19 : Ref sig .tc := ⟨.hbm, 107, rfl⟩
abbrev main_v82 : Ref sig .tc := ⟨.hbm, 108, rfl⟩
abbrev main_v83 : Ref sig .tc := ⟨.hbm, 109, rfl⟩
abbrev main_c_20 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_21 : Ref sig .tc := ⟨.hbm, 114, rfl⟩
abbrev main_v87 : Ref sig .tc := ⟨.hbm, 115, rfl⟩
abbrev main_v88 : Ref sig .tc := ⟨.hbm, 116, rfl⟩
abbrev main_c_22 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_23 : Ref sig .tc := ⟨.hbm, 126, rfl⟩
abbrev main_v97 : Ref sig .tc := ⟨.hbm, 127, rfl⟩
abbrev main_v98 : Ref sig .tc := ⟨.hbm, 128, rfl⟩
abbrev main_c_24 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_25 : Ref sig .tc := ⟨.hbm, 133, rfl⟩
abbrev main_v102 : Ref sig .tc := ⟨.hbm, 134, rfl⟩
abbrev main_v103 : Ref sig .tc := ⟨.hbm, 135, rfl⟩
abbrev main_c_26 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_27 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩

abbrev nD : Nat := 1
abbrev τ : Topo := Topo.v7x

variable {F : FTy → Type} [FloatOps F]

class Facts₀ : Prop where
  slices_S64x512x2_S64x512x1_0_0_0 : S64x512x2.Slices ![0, 0, 0] S64x512x1
  shapeCasts_S64x512x1_S64x512 : S64x512x1.ShapeCasts S64x512
  slices_S64x512x2_S64x512x1_0_0_1 : S64x512x2.Slices ![0, 0, 1] S64x512x1
  bcast_S64_S64x1_0 : S64.BroadcastsInDim S64x1 (![0] : Fin 1 → Fin S64x1.rank)
  bcast_S_S64x1 : S_.BroadcastsInDim S64x1 (![] : Fin 0 → Fin S64x1.rank)
  bcast_S_S64x512 : S_.BroadcastsInDim S64x512 (![] : Fin 0 → Fin S64x512.rank)
  bcast_S64x1_S64x512_0_1 : S64x1.BroadcastsInDim S64x512 (![0, 1] : Fin 2 → Fin S64x512.rank)
  bcast_S64x512_S64x512x1_0_1 : S64x512.BroadcastsInDim S64x512x1 (![0, 1] : Fin 2 → Fin S64x512x1.rank)
  concatenates_S64x512x1_S64x512x1_S64x512x1_S64x512x3_d2 : Shape.Concatenates [S64x512x1, S64x512x1, S64x512x1] S64x512x3 2
  bcast_S_S64x512x512 : S_.BroadcastsInDim S64x512x512 (![] : Fin 0 → Fin S64x512x512.rank)
  concatenates_S64x512x1_S64x512x1_S64x512x2_d2 : Shape.Concatenates [S64x512x1, S64x512x1] S64x512x2 2
  concatenates_S64x512x512_S64x512x512_S64x512x1024_d2 : Shape.Concatenates [S64x512x512, S64x512x512] S64x512x1024 2
  bcast_S_S64x512x1024 : S_.BroadcastsInDim S64x512x1024 (![] : Fin 0 → Fin S64x512x1024.rank)
  concatenates_S64x512x1024_S64x512x512_S64x512x1536_d2 : Shape.Concatenates [S64x512x1024, S64x512x512] S64x512x1536 2
  gather_S64x64x64x512_S64x512x3_S64x512x512_2_012_n_n_012_2_111512_wf : GatherDims.WF S64x64x64x512 S64x512x3 S64x512x512 [2] [0, 1, 2] [] [0, 1, 2] [] 2 ![1, 1, 1, 512]
  gather_S64x64x512_S64x512x2_S64x512x512_2_01_n_n_01_2_11512_wf : GatherDims.WF S64x64x512 S64x512x2 S64x512x512 [2] [0, 1] [] [0, 1] [] 2 ![1, 1, 512]

variable [Facts₀]

def gather_S64x64x64x512_S64x512x3_S64x512x512_2_012_n_n_012_2_111512 : GatherDims S64x64x64x512 S64x512x3 S64x512x512 where
  offsetDims := [2]
  collapsedSliceDims := [0, 1, 2]
  operandBatchingDims := []
  startIndicesBatchingDims := []
  startIndexMap := [0, 1, 2]
  indexVectorDim := 2
  sliceSizes := ![1, 1, 1, 512]
  wf := gather_S64x64x64x512_S64x512x3_S64x512x512_2_012_n_n_012_2_111512_wf
def gather_S64x64x512_S64x512x2_S64x512x512_2_01_n_n_01_2_11512 : GatherDims S64x64x512 S64x512x2 S64x512x512 where
  offsetDims := [2]
  collapsedSliceDims := [0, 1]
  operandBatchingDims := []
  startIndicesBatchingDims := []
  startIndexMap := [0, 1]
  indexVectorDim := 2
  sliceSizes := ![1, 1, 512]
  wf := gather_S64x64x512_S64x512x2_S64x512x512_2_01_n_n_01_2_11512_wf

class Facts : Prop extends Facts₀ where

variable [Facts]
-- ==== Proof.PreDecode.lean ====
/-
  The precondition, read back at one index word.

  The precondition is the conjunction of four `all`-reductions: three say every float input is finite, the fourth says every
  index word `w` of `pairs` satisfies `0 ≤ w` and `w < 64` as signed numbers. A conjunction of one-bit words is 1 only when
  each is, and an `all` that is 1 had a 1 at every index; so at every index `0 ≤ w < 64` signed, and a word that is
  nonnegative as a signed number has the same value unsigned: `w.toNat < 64`.
-/
import proofs.«427924_j36180804502188_2_alg».proof.Pre_finite_inputs
import proofs.«427924_j36180804502188_2_alg».proof.Proof.Gen.Pre_finite_inputs
import Idealize.ShloMosaic.Lib.ReduceAll
import Idealize.ShloMosaic.Lib.ValueIdx

noncomputable section

namespace Cert.GatherMean.Pre

open Idealize.ShloMosaic Cert.Pre_finite_inputs

variable [Cert.Pre_finite_inputs.Facts]
open Cert.Pre_finite_inputs.Facts

instance : Subsingleton S_.Idx := ⟨fun a b => funext fun d => d.elim0⟩

/-- A word in `[0, 64)` as a signed number is below 64 as a natural number. -/
theorem toNat_lt_of_signed (w : BitVec 32) (h0 : (0#32 : BitVec 32).toInt ≤ w.toInt) (h1 : w.toInt < (64#32 : BitVec 32).toInt) :
    w.toNat < 64 := by
  have e := BitVec.toInt_eq_toNat_cond w
  have e0 : (0#32 : BitVec 32).toInt = 0 := by decide
  have e64 : (64#32 : BitVec 32).toInt = 64 := by decide
  have := w.isLt
  rw [e0] at h0; rw [e64] at h1
  split at e <;> omega

/-- Under the precondition every index word of `pairs` is below 64. -/
theorem pairs_lt {F : FTy → Type} [FloatOps F] (a0 a1 : FVec F S64x64x512 .f32) (a2 : FVec F S64x64x64x512 .f32)
    (a3 : IVec S64x512x2 32) (h : fn (F := F) a0 a1 a2 a3 = fun _ => 1#1) (i : S64x512x2.Idx) : (a3 i).toNat < 64 := by
  have e := congrFun h ValueIdx.ix0
  dsimp only [fn, fn_part1] at e
  have e2 := (IntOp.andi_eq_one.1 e).2
  have e3 := Host.reduce_andi_all _ _ _ _ _ e2 i
  obtain ⟨h0, h64⟩ := IntOp.andi_eq_one.1 e3
  exact toNat_lt_of_signed _ (IntOp.cmpi_sge.1 h0) (IntOp.cmpi_slt.1 h64)

end Cert.GatherMean.Pre

end
-- ==== Proof.Spec.lean ====
/-
  What both programs compute, as one function of the four argument arrays.

  For batch `b` and pair `p` let `i₀, i₁` be the two index words `pairs[b, p, 0]`, `pairs[b, p, 1]`, read as row numbers
  below 64. The result row `(b, p)` has 1536 columns in three bands of 512:
    columns 0 … 511      ½ · (node[b, i₀, j] + obj[b, i₀, j]),
    columns 512 … 1023   ½ · (node[b, i₁, j − 512] + obj[b, i₁, j − 512]),
    columns 1024 … 1535  ½ · (edge[b, i₀, i₁, j − 1024] + edge[b, i₁, i₀, j − 1024]).
  The constant ½ is kept as the word both programs print, so it is never evaluated.

  The one algebraic fact that joins a sum weighted by indicator rows to a plain selection lives here too: over the extended
  reals `∑ₖ [a = k] · f k = f a`, and `∑ₖ ([a = k] + [b = k]) · f k = f a + f b` (the weights are 0, 1 or 2, all nonnegative, so the
  product distributes over their sum even at an infinite `f k`; when `a = b` the one surviving term is `2 · f a = f a + f a`).
-/
import Idealize.ShloMosaic.PureOps.Ideal
import Idealize.ShloMosaic.Lib.ValueIdx

noncomputable section

open scoped BigOperators

namespace Cert.GatherMean

open Idealize.ShloMosaic Idealize.ShloMosaic.ValueIdx

/-! ## Index words as row numbers -/

/-- An index word read as a row number below 64 (the word itself when it is below 64). -/
def row (w : BitVec 32) : Fin 64 := ⟨w.toNat % 64, Nat.mod_lt _ (by decide)⟩

theorem row_val {w : BitVec 32} (h : w.toNat < 64) : (row w).val = w.toNat := Nat.mod_eq_of_lt h

/-! ## One cell of the result -/

/-- The constant ½ as the f32 word both programs carry. -/
abbrev half : EReal := Ideal.ofBits .f32 0x3F000000#32

/-- Column `j` of a result row, from the node and object tables of its batch (`nd`, `ob`: row, column), the batch's edge table
    (`ed`: row, row, column) and the pair's two row numbers `a`, `b`. -/
def cell (nd ob : Fin 64 → Fin 512 → EReal) (ed : Fin 64 → Fin 64 → Fin 512 → EReal) (a b : Fin 64) (j : Fin 1536) : EReal :=
  if h1 : j.val < 512 then half * (nd a ⟨j.val, h1⟩ + ob a ⟨j.val, h1⟩)
  else if h2 : j.val < 1024 then half * (nd b ⟨j.val - 512, by omega⟩ + ob b ⟨j.val - 512, by omega⟩)
  else half * (ed a b ⟨j.val - 1024, by have := j.isLt; omega⟩ + ed b a ⟨j.val - 1024, by have := j.isLt; omega⟩)

theorem cell_lo (nd ob : Fin 64 → Fin 512 → EReal) (ed : Fin 64 → Fin 64 → Fin 512 → EReal) (a b : Fin 64) (j : Fin 1536)
    (h1 : j.val < 512) : cell nd ob ed a b j = half * (nd a ⟨j.val, h1⟩ + ob a ⟨j.val, h1⟩) := by
  unfold cell; rw [dif_pos h1]

theorem cell_mid (nd ob : Fin 64 → Fin 512 → EReal) (ed : Fin 64 → Fin 64 → Fin 512 → EReal) (a b : Fin 64) (j : Fin 1536)
    (h1 : 512 ≤ j.val) (h2 : j.val < 1024) :
    cell nd ob ed a b j = half * (nd b ⟨j.val - 512, by omega⟩ + ob b ⟨j.val - 512, by omega⟩) := by
  unfold cell; rw [dif_neg (by omega), dif_pos h2]

theorem cell_hi (nd ob : Fin 64 → Fin 512 → EReal) (ed : Fin 64 → Fin 64 → Fin 512 → EReal) (a b : Fin 64) (j : Fin 1536)
    (h2 : 1024 ≤ j.val) :
    cell nd ob ed a b j
      = half * (ed a b ⟨j.val - 1024, by have := j.isLt; omega⟩ + ed b a ⟨j.val - 1024, by have := j.isLt; omega⟩) := by
  unfold cell; rw [dif_neg (by omega), dif_neg (by omega)]

/-! ## The whole result array -/

/-- The result array as one function of the argument arrays: at `(b, p, j)` the cell of batch `b`'s tables at the two row
    numbers pair `(b, p)` names. -/
def result (obj node : (⟨3, ![64, 64, 512]⟩ : Shape).Idx → EReal) (edge : (⟨4, ![64, 64, 64, 512]⟩ : Shape).Idx → EReal)
    (pairs : IVec ⟨3, ![64, 512, 2]⟩ 32) : (⟨3, ![64, 512, 1536]⟩ : Shape).Idx → EReal :=
  fun i =>
    cell (fun k j => node (ix3 (i 0 : Fin 64) k j)) (fun k j => obj (ix3 (i 0 : Fin 64) k j))
      (fun a b j => edge (ix4 (i 0 : Fin 64) a b j))
      (row (pairs (ix3 (i 0 : Fin 64) (i 1 : Fin 512) (0 : Fin 2)))) (row (pairs (ix3 (i 0 : Fin 64) (i 1 : Fin 512) (1 : Fin 2))))
      (i 2 : Fin 1536)

/-! ## Sums weighted by indicator rows -/

/-- A sum weighted by the indicator of one position is the term at that position. -/
theorem sum_pick {n : Nat} (a : Fin n) (f : Fin n → EReal) :
    ∑ k : Fin n, (if a.val = k.val then (1 : EReal) else 0) * f k = f a := by
  rw [Finset.sum_eq_single a]
  · rw [if_pos rfl, one_mul]
  · intro k _ hk
    rw [if_neg (fun h => hk (Fin.ext h.symm)), zero_mul]
  · intro h; exact absurd (Finset.mem_univ a) h

/-- A sum weighted by the SUM of two indicators is the sum of the two terms — also when the two positions coincide. -/
theorem sum_pick_two {n : Nat} (a b : Fin n) (f : Fin n → EReal) :
    ∑ k : Fin n, ((if a.val = k.val then (1 : EReal) else 0) + (if b.val = k.val then (1 : EReal) else 0)) * f k = f a + f b := by
  have hd : ∀ k : Fin n,
      ((if a.val = k.val then (1 : EReal) else 0) + (if b.val = k.val then (1 : EReal) else 0)) * f k
        = (if a.val = k.val then (1 : EReal) else 0) * f k + (if b.val = k.val then (1 : EReal) else 0) * f k := fun k =>
    EReal.right_distrib_of_nonneg (by split <;> norm_num) (by split <;> norm_num)
  simp only [hd, Finset.sum_add_distrib, sum_pick]

end Cert.GatherMean

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.Indicator.lean ====
/-
  Index words and the indicator rows a kernel builds from them.

  A kernel that selects row `i` of a table by a matrix product first makes the indicator row `[i = k]`, k = 0 … N − 1: it
  compares the index word, broadcast along a row, with the row `0, 1, …, N − 1` of position numbers, widens the one-bit
  answer to a 32-bit word and converts that to a float. At the ideal values the entry is exactly 1 where the word's value is
  `k` and exactly 0 elsewhere. For a flattened two-level table the row number is `64·i + i'`, computed on 32-bit words; for
  `i, i' < 64` nothing wraps and its value is `64·i + i'` on the naturals.
-/
import Idealize.ShloMosaic.PureOps.Ideal
import Idealize.ShloMosaic.Lib.ValueIdx
import Idealize.ShloMosaic.Lib.Pipeline.Value

noncomputable section

namespace Cert.GatherMean

open Idealize.ShloMosaic Idealize.ShloMosaic.ValueIdx

/-! ## Words -/

/-- The comparison of a word with the word of a small number `k`, widened and converted: 1 when the word's value is `k`,
    else 0. -/
theorem indicator_word (w : BitVec 32) (k : Nat) (hk : k < 2 ^ 32) :
    FloatOps.sitofp (F := Ideal) .f32 ((IntOp.cmpi .eq w (BitVec.ofNat 32 k)).setWidth 32)
      = if w.toNat = k then (1 : EReal) else 0 := by
  by_cases h : w.toNat = k
  · have hw : w = BitVec.ofNat 32 k := BitVec.eq_of_toNat_eq (by rw [BitVec.toNat_ofNat, Nat.mod_eq_of_lt hk, h])
    rw [if_pos h, hw]
    have e : (IntOp.cmpi .eq (BitVec.ofNat 32 k) (BitVec.ofNat 32 k)).setWidth 32 = 1#32 := by simp [IntOp.cmpi]
    rw [e]
    show (((BitVec.toInt (1#32 : BitVec 32) : ℤ) : ℝ) : EReal) = 1
    have e1 : (1#32 : BitVec 32).toInt = 1 := by decide
    rw [e1]; norm_num
  · have hw : ¬ w = BitVec.ofNat 32 k := fun e => h (by rw [e, BitVec.toNat_ofNat, Nat.mod_eq_of_lt hk])
    rw [if_neg h]
    have hb : (w == BitVec.ofNat 32 k) = false := by
      cases hbb : (w == BitVec.ofNat 32 k)
      · rfl
      · exact absurd (eq_of_beq hbb) hw
    have e : (IntOp.cmpi .eq w (BitVec.ofNat 32 k)).setWidth 32 = 0#32 := by
      unfold IntOp.cmpi; rw [hb]; rfl
    rw [e]
    show (((BitVec.toInt (0#32 : BitVec 32) : ℤ) : ℝ) : EReal) = 0
    have e0 : (0#32 : BitVec 32).toInt = 0 := by decide
    rw [e0]; norm_num

/-- The flattened row number `64·i + i'` on words is the same number on the naturals when both are below 64. -/
theorem flat_row_toNat (w v : BitVec 32) (hw : w.toNat < 64) (hv : v.toNat < 64) :
    (IntOp.addi (IntOp.muli w 64#32) v).toNat = w.toNat * 64 + v.toNat := by
  unfold IntOp.addi IntOp.muli
  rw [BitVec.toNat_add, BitVec.toNat_mul]
  show (w.toNat * 64 % 2 ^ 32 + v.toNat) % 2 ^ 32 = _
  omega

/-! ## The indicator matrix at an entry -/

/-- Row `p`, column `k` of the indicator matrix built from the column of index words `col`: 1 when word `p` has value `k`,
    else 0. -/
theorem indicator_apply (N : Nat) (hN : N < 2 ^ 32) (col : IVec ⟨2, ![256, 1]⟩ 32)
    (hb1 : (⟨2, ![256, 1]⟩ : Shape).Broadcasts ⟨2, ![256, N]⟩) (hb2 : (⟨2, ![1, N]⟩ : Shape).Broadcasts ⟨2, ![256, N]⟩)
    (hi : (⟨2, ![1, N]⟩ : Shape).Iotas .tc 32 [1]) (h32 : 1 < 32) (p : Fin 256) (k : Fin N) :
    (sitofp .f32 (extui 32 (cmpi .eq (broadcastTo ⟨2, ![256, N]⟩ col hb1)
        (broadcastTo ⟨2, ![256, N]⟩ (iota .tc ⟨2, ![1, N]⟩ 32 [1] hi) hb2)) h32) : FVec Ideal ⟨2, ![256, N]⟩ .f32) (ix2 p k)
      = if (col (ix2 p (0 : Fin 1))).toNat = k.val then (1 : EReal) else 0 := by
  have e1 : broadcastTo ⟨2, ![256, N]⟩ col hb1 (ix2 p k) = col (ix2 p (0 : Fin 1)) :=
    broadcastTo_apply col hb1 (ix2 p k) (ix2 p (0 : Fin 1)) (fun a => by
      match a with
      | ⟨0, _⟩ => show p.val = if (256 : Nat) = 1 then 0 else p.val; rw [if_neg (by decide)]
      | ⟨1, _⟩ => show (0 : Nat) = if (1 : Nat) = 1 then 0 else k.val; rw [if_pos rfl])
  have e2 : broadcastTo ⟨2, ![256, N]⟩ (iota .tc ⟨2, ![1, N]⟩ 32 [1] hi) hb2 (ix2 p k) = BitVec.ofNat 32 k.val := by
    by_cases hN1 : N = 1
    · subst hN1
      have hk0 : k.val = 0 := by have := k.isLt; omega
      rw [broadcastTo_apply _ hb2 (ix2 p k) (ix2 (0 : Fin 1) k) (fun a => by
        match a with
        | ⟨0, _⟩ => show (0 : Nat) = if (1 : Nat) = 1 then 0 else p.val; rw [if_pos rfl]
        | ⟨1, _⟩ => show k.val = if (1 : Nat) = 1 then 0 else k.val; rw [if_pos rfl, hk0]),
        iota_single_apply]
    · rw [broadcastTo_apply _ hb2 (ix2 p k) (ix2 (0 : Fin 1) k) (fun a => by
        match a with
        | ⟨0, _⟩ => show (0 : Nat) = if (1 : Nat) = 1 then 0 else p.val; rw [if_pos rfl]
        | ⟨1, _⟩ => show k.val = if N = 1 then 0 else k.val; rw [if_neg hN1]),
        iota_single_apply]
      rfl
  show FloatOps.sitofp (F := Ideal) .f32 ((IntOp.cmpi .eq (broadcastTo ⟨2, ![256, N]⟩ col hb1 (ix2 p k))
      (broadcastTo ⟨2, ![256, N]⟩ (iota .tc ⟨2, ![1, N]⟩ 32 [1] hi) hb2 (ix2 p k))).setWidth 32) = _
  rw [e1, e2]
  exact indicator_word _ _ (lt_trans k.isLt hN)

end Cert.GatherMean

end
-- ==== Proof.KernelCell.lean ====
/-
  The kernel body's stored value, entry by entry.

  At a grid point the body holds the point's batch tables — node and obj, 64 rows of 512, and edge, 64 × 64 rows of 512 — and a
  tile of 256 pairs of index words. It never indexes a table: it multiplies indicator matrices by tables. With `i₀, i₁` the two
  words of pair `p` (both below 64):
    • the indicator row of `i₀` (resp. `i₁`) times the 64-row table ½·(node + obj) is that table's row `i₀` (resp. `i₁`): the left
      and the middle band of the stored row;
    • the SUM of the indicator rows of `64·i₀ + i₁` and `64·i₁ + i₀` times the edge table flattened to 4096 rows is
      edge[i₀, i₁] + edge[i₁, i₀], and ½ of it is the right band.
  Changes of float format are the identity at the ideal values, so the narrowed operands of the products are the values
  themselves. The sums over the 64 or 4096 rows collapse by `sum_pick` / `sum_pick_two` of the specification.
-/
import proofs.«427924_j36180804502188_2_alg».proof.Proof.Spec
import proofs.«427924_j36180804502188_2_alg».proof.Proof.LibPlainDot
import proofs.«427924_j36180804502188_2_alg».proof.Proof.Indicator
import proofs.«427924_j36180804502188_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.GatherMean.Kernel

open Idealize.ShloMosaic Idealize.ShloMosaic.ValueIdx Cert.KernelIdeal Cert.KernelIdeal.Gen
open Cert.Lib.PlainDot Cert.GatherMean

/-! ## The two tables the products read -/

/-- Entry `(k, c)` of the table ½·(node + obj) of the point's batch. -/
theorem mean_table_apply (v17 v19 : Vec Ideal S1x64x512 .f32) (k : Fin 64) (c : Fin 512) :
    (truncf .bf16 (mulf (broadcast S64x512 (Scalar.ofBits .f32 0x3F000000#32))
        (addf (shapeCast S64x512 v17 Facts₀.shapeCasts_S1x64x512_S64x512) (shapeCast S64x512 v19 Facts₀.shapeCasts_S1x64x512_S64x512)))
      Facts₀.bitsLt_bf16_f32 : FVec Ideal S64x512 .bf16) (ix2 k c)
      = half * (v17 (ix3 (0 : Fin 1) k c) + v19 (ix3 (0 : Fin 1) k c)) := by
  have e17 : shapeCast S64x512 v17 Facts₀.shapeCasts_S1x64x512_S64x512 (ix2 k c) = v17 (ix3 (0 : Fin 1) k c) :=
    shapeCast_apply v17 _ (ix2 k c) (ix3 (0 : Fin 1) k c) (by
      rw [Shape.rowMajor_val_three, Shape.rowMajor_val_two]
      show ((0 : Nat) * 64 + k.val) * 512 + c.val = k.val * 512 + c.val
      omega)
  have e19 : shapeCast S64x512 v19 Facts₀.shapeCasts_S1x64x512_S64x512 (ix2 k c) = v19 (ix3 (0 : Fin 1) k c) :=
    shapeCast_apply v19 _ (ix2 k c) (ix3 (0 : Fin 1) k c) (by
      rw [Shape.rowMajor_val_three, Shape.rowMajor_val_two]
      show ((0 : Nat) * 64 + k.val) * 512 + c.val = k.val * 512 + c.val
      omega)
  rw [truncf_apply, mulf_apply, broadcast_apply, addf_apply, e17, e19]
  rfl

/-- Row `64·a + b`, column `c` of the flattened edge table is edge entry `(a, b, c)` of the point's batch. -/
theorem edge_table_apply (v28 : Vec Ideal S1x64x64x512 .f32) (a b : Fin 64) (c : Fin 512) :
    k0_pay5 v28 (ix2 (⟨a.val * 64 + b.val, by have := a.isLt; have := b.isLt; omega⟩ : Fin 4096) c)
      = v28 (ix4 (0 : Fin 1) a b c) := by
  unfold k0_pay5
  rw [truncf_apply]
  rw [shapeCast_apply _ Facts₀.shapeCasts_S64x64x512_S4096x512 (ix2 (⟨a.val * 64 + b.val, by have := a.isLt; have := b.isLt; omega⟩ : Fin 4096) c)
    (ix3 a b c) (by
      rw [Shape.rowMajor_val_three, Shape.rowMajor_val_two]
      show (a.val * 64 + b.val) * 512 + c.val = (a.val * 64 + b.val) * 512 + c.val
      rfl)]
  exact shapeCast_apply v28 _ (ix3 a b c) (ix4 (0 : Fin 1) a b c) (by
      rw [Shape.rowMajor_val_four, Shape.rowMajor_val_three]
      show (((0 : Nat) * 64 + a.val) * 64 + b.val) * 512 + c.val = (a.val * 64 + b.val) * 512 + c.val
      omega)

/-! ## The index words of a pair -/

/-- The first index word of pair `p` as the body holds it. -/
theorem word0_apply (v0 : Vec Ideal S1x256x1 .i32) (p : Fin 256) :
    k0_pay2 v0 (ix2 p (0 : Fin 1)) = v0 (ix3 (0 : Fin 1) p (0 : Fin 1)) := by
  unfold k0_pay2
  exact shapeCast_apply v0 _ (ix2 p (0 : Fin 1)) (ix3 (0 : Fin 1) p (0 : Fin 1)) (by
    rw [Shape.rowMajor_val_three, Shape.rowMajor_val_two]
    show ((0 : Nat) * 256 + p.val) * 1 + 0 = p.val * 1 + 0
    omega)

/-- The second index word of pair `p` as the body holds it. -/
theorem word1_apply (v2 : Vec Ideal S1x256x1 .i32) (p : Fin 256) :
    k0_pay3 v2 (ix2 p (0 : Fin 1)) = v2 (ix3 (0 : Fin 1) p (0 : Fin 1)) := by
  unfold k0_pay3
  exact shapeCast_apply v2 _ (ix2 p (0 : Fin 1)) (ix3 (0 : Fin 1) p (0 : Fin 1)) (by
    rw [Shape.rowMajor_val_three, Shape.rowMajor_val_two]
    show ((0 : Nat) * 256 + p.val) * 1 + 0 = p.val * 1 + 0
    omega)

/-- The flattened row number `64·i₀ + i₁` of pair `p`. -/
theorem flat01_toNat (v0 v2 : Vec Ideal S1x256x1 .i32) (p : Fin 256)
    (h0 : (v0 (ix3 (0 : Fin 1) p (0 : Fin 1))).toNat < 64) (h1 : (v2 (ix3 (0 : Fin 1) p (0 : Fin 1))).toNat < 64) :
    (k0_pay6 v0 v2 (ix2 p (0 : Fin 1))).toNat
      = (v0 (ix3 (0 : Fin 1) p (0 : Fin 1))).toNat * 64 + (v2 (ix3 (0 : Fin 1) p (0 : Fin 1))).toNat := by
  unfold k0_pay6
  show (IntOp.addi (IntOp.muli (k0_pay2 v0 (ix2 p (0 : Fin 1))) 64#32) (k0_pay3 v2 (ix2 p (0 : Fin 1)))).toNat = _
  rw [word0_apply, word1_apply]
  exact flat_row_toNat _ _ h0 h1

/-- The flattened row number `64·i₁ + i₀` of pair `p`. -/
theorem flat10_toNat (v0 v2 : Vec Ideal S1x256x1 .i32) (p : Fin 256)
    (h0 : (v0 (ix3 (0 : Fin 1) p (0 : Fin 1))).toNat < 64) (h1 : (v2 (ix3 (0 : Fin 1) p (0 : Fin 1))).toNat < 64) :
    (addi (k0_pay7 v2) (k0_pay2 v0) (ix2 p (0 : Fin 1))).toNat
      = (v2 (ix3 (0 : Fin 1) p (0 : Fin 1))).toNat * 64 + (v0 (ix3 (0 : Fin 1) p (0 : Fin 1))).toNat := by
  unfold k0_pay7
  show (IntOp.addi (IntOp.muli (k0_pay3 v2 (ix2 p (0 : Fin 1))) 64#32) (k0_pay2 v0 (ix2 p (0 : Fin 1)))).toNat = _
  rw [word0_apply, word1_apply]
  exact flat_row_toNat _ _ h1 h0

/-! ## A product with an indicator matrix selects rows -/

/-- The product of the indicator matrix of a column of index words with a 64-row table holds, in row `p`, the table's row
    numbered by word `p` (a word below 64): every other term of the sum over the 64 rows is `0 · x`. -/
theorem select_row (col : IVec S256x1 32) (tbl : FVec Ideal S64x512 .bf16) (p : Fin 256) (c : Fin 512)
    (hw : (col (ix2 p (0 : Fin 1))).toNat < 64) :
    matmul dot_S256x64_S64x512_S256x512_1_0_0_1_n_n none
        (truncf .bf16 (sitofp .f32 (extui 32 (cmpi .eq (broadcastTo S256x64 col Facts₀.broadcasts_S256x1_S256x64)
          (broadcastTo S256x64 (iota .tc S1x64 32 [1] Facts₀.iota_S1x64_d1_w32) Facts₀.broadcasts_S1x64_S256x64))
          Facts₀.natLt_1_32)) Facts₀.bitsLt_bf16_f32 : FVec Ideal S256x64 .bf16)
        tbl (constant S256x512 .f32 0x00000000#32) (ix2 p c)
      = tbl (ix2 (row (col (ix2 p (0 : Fin 1)))) c) := by
  refine (matmul_plain_zero_ix2 256 64 512 none _ tbl p c).trans ?_
  have hk : ∀ k : Fin 64,
      ((truncf .bf16 (sitofp .f32 (extui 32 (cmpi .eq (broadcastTo S256x64 col Facts₀.broadcasts_S256x1_S256x64)
          (broadcastTo S256x64 (iota .tc S1x64 32 [1] Facts₀.iota_S1x64_d1_w32) Facts₀.broadcasts_S1x64_S256x64))
          Facts₀.natLt_1_32)) Facts₀.bitsLt_bf16_f32 : FVec Ideal S256x64 .bf16) (ix2 p k) : EReal) * (tbl (ix2 k c) : EReal)
        = (if (row (col (ix2 p (0 : Fin 1)))).val = k.val then (1 : EReal) else 0) * (tbl (ix2 k c) : EReal) := fun k => by
    rw [truncf_apply, indicator_apply 64 (by norm_num) col _ _ _ _ p k, row_val hw]
  rw [Finset.sum_congr rfl (fun k _ => hk k)]
  exact sum_pick (row (col (ix2 p (0 : Fin 1)))) (fun k => (tbl (ix2 k c) : EReal))

/-- The product of the SUM of two indicator matrices (of two columns of flattened row numbers below 4096) with a 4096-row
    table holds, in row `p`, the sum of the two rows the two numbers name. -/
theorem select_two_rows (col col' : IVec S256x1 32) (tbl : FVec Ideal S4096x512 .bf16) (p : Fin 256) (c : Fin 512)
    (q q' : Fin 4096) (hq : (col (ix2 p (0 : Fin 1))).toNat = q.val) (hq' : (col' (ix2 p (0 : Fin 1))).toNat = q'.val) :
    matmul dot_S256x4096_S4096x512_S256x512_1_0_0_1_n_n none
        (addf
          (truncf .bf16 (sitofp .f32 (extui 32 (cmpi .eq (broadcastTo S256x4096 col Facts₀.broadcasts_S256x1_S256x4096)
            (broadcastTo S256x4096 (iota .tc S1x4096 32 [1] Facts₀.iota_S1x4096_d1_w32) Facts₀.broadcasts_S1x4096_S256x4096))
            Facts₀.natLt_1_32)) Facts₀.bitsLt_bf16_f32 : FVec Ideal S256x4096 .bf16)
          (truncf .bf16 (sitofp .f32 (extui 32 (cmpi .eq (broadcastTo S256x4096 col' Facts₀.broadcasts_S256x1_S256x4096)
            (broadcastTo S256x4096 (iota .tc S1x4096 32 [1] Facts₀.iota_S1x4096_d1_w32) Facts₀.broadcasts_S1x4096_S256x4096))
            Facts₀.natLt_1_32)) Facts₀.bitsLt_bf16_f32 : FVec Ideal S256x4096 .bf16))
        tbl (constant S256x512 .f32 0x00000000#32) (ix2 p c)
      = tbl (ix2 q c) + tbl (ix2 q' c) := by
  refine (matmul_plain_zero_ix2 256 4096 512 none _ tbl p c).trans ?_
  have hk : ∀ k : Fin 4096,
      ((addf
          (truncf .bf16 (sitofp .f32 (extui 32 (cmpi .eq (broadcastTo S256x4096 col Facts₀.broadcasts_S256x1_S256x4096)
            (broadcastTo S256x4096 (iota .tc S1x4096 32 [1] Facts₀.iota_S1x4096_d1_w32) Facts₀.broadcasts_S1x4096_S256x4096))
            Facts₀.natLt_1_32)) Facts₀.bitsLt_bf16_f32 : FVec Ideal S256x4096 .bf16)
          (truncf .bf16 (sitofp .f32 (extui 32 (cmpi .eq (broadcastTo S256x4096 col' Facts₀.broadcasts_S256x1_S256x4096)
            (broadcastTo S256x4096 (iota .tc S1x4096 32 [1] Facts₀.iota_S1x4096_d1_w32) Facts₀.broadcasts_S1x4096_S256x4096))
            Facts₀.natLt_1_32)) Facts₀.bitsLt_bf16_f32 : FVec Ideal S256x4096 .bf16) : FVec Ideal S256x4096 .bf16) (ix2 p k) : EReal)
          * (tbl (ix2 k c) : EReal)
        = ((if q.val = k.val then (1 : EReal) else 0) + (if q'.val = k.val then (1 : EReal) else 0)) * (tbl (ix2 k c) : EReal) := fun k => by
    rw [addf_apply, truncf_apply, truncf_apply, indicator_apply 4096 (by norm_num) col _ _ _ _ p k,
      indicator_apply 4096 (by norm_num) col' _ _ _ _ p k, hq, hq']
  rw [Finset.sum_congr rfl (fun k _ => hk k)]
  exact sum_pick_two q q' (fun k => (tbl (ix2 k c) : EReal))

/-! ## The body's result at an entry -/

/-- THE BODY'S STORED VALUE at row `p`, column `j` of its block is the specification's cell of the loaded tables at the two
    index words of pair `p` (both below 64): the left band and the middle band are one selected row each of the table
    ½·(node + obj), the right band is ½ times the sum of the two selected rows of the flattened edge table. -/
theorem payload_apply (v0 v2 : Vec Ideal S1x256x1 .i32) (v17 v19 : Vec Ideal S1x64x512 .f32) (v28 : Vec Ideal S1x64x64x512 .f32)
    (p : Fin 256) (j : Fin 1536)
    (h0 : (v0 (ix3 (0 : Fin 1) p (0 : Fin 1))).toNat < 64) (h1 : (v2 (ix3 (0 : Fin 1) p (0 : Fin 1))).toNat < 64) :
    k0_pay1 (k0_pay2 v0) (k0_pay4 v0 v2 v17 v19) (k0_pay5 v28) (k0_pay6 v0 v2) (k0_pay7 v2) (ix3 (0 : Fin 1) p j)
      = cell (fun k c => v17 (ix3 (0 : Fin 1) k c)) (fun k c => v19 (ix3 (0 : Fin 1) k c))
          (fun a b c => v28 (ix4 (0 : Fin 1) a b c))
          (row (v0 (ix3 (0 : Fin 1) p (0 : Fin 1)))) (row (v2 (ix3 (0 : Fin 1) p (0 : Fin 1)))) j := by
  unfold k0_pay1
  refine (shapeCast_apply _ Facts₀.shapeCasts_S256x1536_S1x256x1536 (ix3 (0 : Fin 1) p j) (ix2 p j) (by
    rw [Shape.rowMajor_val_two, Shape.rowMajor_val_three]
    show p.val * 1536 + j.val = ((0 : Nat) * 256 + p.val) * 1536 + j.val
    omega)).trans ?_
  by_cases hj : j.val < 1024
  · refine (concatenate_pair_apply_left (t := S256x1536) (s₁ := S256x1024) (s₂ := S256x512) (1 : Fin 2) _ _ Facts₀.concatenates_S256x1024_S256x512_S256x1536_d1 (ix2 p j) rfl
      (ix2 p (⟨j.val, hj⟩ : Fin 1024)) (fun b => match b with | ⟨0, _⟩ => rfl | ⟨1, _⟩ => rfl)).trans ?_
    unfold k0_pay4
    by_cases hj2 : j.val < 512
    · refine (concatenate_pair_apply_left (t := S256x1024) (s₁ := S256x512) (s₂ := S256x512) (1 : Fin 2) _ _ Facts₀.concatenates_S256x512_S256x512_S256x1024_d1
        (ix2 p (⟨j.val, hj⟩ : Fin 1024)) rfl (ix2 p (⟨j.val, hj2⟩ : Fin 512))
        (fun b => match b with | ⟨0, _⟩ => rfl | ⟨1, _⟩ => rfl)).trans ?_
      rw [select_row (k0_pay2 v0) _ p ⟨j.val, hj2⟩ (by rw [word0_apply]; exact h0), mean_table_apply, word0_apply,
        cell_lo _ _ _ _ _ j hj2]
    · have hj3 : j.val - 512 < 512 := by omega
      refine (concatenate_pair_apply_right (t := S256x1024) (s₁ := S256x512) (s₂ := S256x512) (1 : Fin 2) _ _ Facts₀.concatenates_S256x512_S256x512_S256x1024_d1
        (ix2 p (⟨j.val, hj⟩ : Fin 1024)) rfl rfl (ix2 p (⟨j.val - 512, hj3⟩ : Fin 512))
        (fun b hb => match b, hb with | ⟨0, _⟩, _ => rfl | ⟨1, _⟩, hb => absurd rfl hb)
        (by show (j.val - 512) + 512 = j.val; omega)).trans ?_
      rw [select_row (k0_pay3 v2) _ p ⟨j.val - 512, hj3⟩ (by rw [word1_apply]; exact h1), mean_table_apply, word1_apply,
        cell_mid _ _ _ _ _ j (by omega) hj]
  · have hj3 : j.val - 1024 < 512 := by have := j.isLt; omega
    refine (concatenate_pair_apply_right (t := S256x1536) (s₁ := S256x1024) (s₂ := S256x512) (1 : Fin 2) _ _ Facts₀.concatenates_S256x1024_S256x512_S256x1536_d1 (ix2 p j) rfl rfl
      (ix2 p (⟨j.val - 1024, hj3⟩ : Fin 512))
      (fun b hb => match b, hb with | ⟨0, _⟩, _ => rfl | ⟨1, _⟩, hb => absurd rfl hb)
      (by show (j.val - 1024) + 1024 = j.val; omega)).trans ?_
    rw [mulf_apply, broadcast_apply,
      select_two_rows (k0_pay6 v0 v2) (addi (k0_pay7 v2) (k0_pay2 v0)) (k0_pay5 v28) p ⟨j.val - 1024, hj3⟩
        ⟨(row (v0 (ix3 (0 : Fin 1) p (0 : Fin 1)))).val * 64 + (row (v2 (ix3 (0 : Fin 1) p (0 : Fin 1)))).val, by
          have := (row (v0 (ix3 (0 : Fin 1) p (0 : Fin 1)))).isLt; have := (row (v2 (ix3 (0 : Fin 1) p (0 : Fin 1)))).isLt; omega⟩
        ⟨(row (v2 (ix3 (0 : Fin 1) p (0 : Fin 1)))).val * 64 + (row (v0 (ix3 (0 : Fin 1) p (0 : Fin 1)))).val, by
          have := (row (v0 (ix3 (0 : Fin 1) p (0 : Fin 1)))).isLt; have := (row (v2 (ix3 (0 : Fin 1) p (0 : Fin 1)))).isLt; omega⟩
        (by rw [flat01_toNat v0 v2 p h0 h1]
            show _ = (row (v0 (ix3 (0 : Fin 1) p (0 : Fin 1)))).val * 64 + (row (v2 (ix3 (0 : Fin 1) p (0 : Fin 1)))).val
            rw [row_val h0, row_val h1])
        (by rw [flat10_toNat v0 v2 p h0 h1]
            show _ = (row (v2 (ix3 (0 : Fin 1) p (0 : Fin 1)))).val * 64 + (row (v0 (ix3 (0 : Fin 1) p (0 : Fin 1)))).val
            rw [row_val h0, row_val h1]),
      edge_table_apply, edge_table_apply, cell_hi _ _ _ _ _ j (by omega)]
    rfl

end Cert.GatherMean.Kernel

end
-- ==== Proof.KernelArray.lean ====
/-
  From the blocks the grid points write to the whole output array.

  The grid has 64 × 2 points: point `t` works on batch `t / 2` and on the tile `t % 2` of 256 pairs. Its three table windows hold
  the batch's whole node, obj and edge tables, its pair window the tile's 256 × 2 index words, and it writes the tile's 256
  result rows. Reading each block back in the whole arrays, what point `t` writes is exactly block `t` of the specification's
  result of the four argument arrays (the body's value entry by entry is `payload_apply`); the 128 output blocks tile the
  [64, 512, 1536] array (index `(b, q, j)` lies in the block of point `2·b + q / 256`), so after the run the output array IS that
  result. The only hypothesis is the one the precondition gives: every index word is below 64.
-/
import proofs.«427924_j36180804502188_2_alg».proof.Proof.KernelCell
import proofs.«427924_j36180804502188_2_alg».proof.Proof.Gen.KernelIdeal.Value

noncomputable section

namespace Cert.GatherMean.KernelArray

open Idealize.ShloMosaic Idealize.ShloMosaic.ValueIdx Idealize.ShloMosaic.TcCoe Idealize.SL.Sem
open Cert.KernelIdeal Cert.KernelIdeal.Gen Cert.GatherMean Cert.GatherMean.Kernel
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## Where each window's block sits, point by point -/

/-- The printed index maps, decided over the 128 grid points: point `t` works on batch `t / 2` and on the pair tile `t % 2`;
    the three table windows take that batch's whole table, the pair window and the output window that batch's tile. -/
theorem index_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 4) = t.val / 2 ∧ win0_2.index t (1 : Fin 4) = 0 ∧ win0_2.index t (2 : Fin 4) = 0
        ∧ win0_2.index t (3 : Fin 4) = 0)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = t.val % 2 ∧ win0_4.index t (2 : Fin 3) = 0) :=
  (by decide +kernel : ∀ t : Fin grid0.N, _)

/-- The batch of point `t`. -/
def batch (t : Fin cfg0.N) : Fin 64 := ⟨t.val / 2, by have : t.val < 128 := t.isLt; omega⟩
/-- Pair `p` of point `t`'s tile, numbered in the whole batch. -/
def pairOf (t : Fin cfg0.N) (p : Fin 256) : Fin 512 := ⟨t.val % 2 * 256 + p.val, by have := p.isLt; omega⟩

/-! ## The input blocks, by their literal types, read at an entry -/

abbrev objBlk (c : Dev nD) (t : Fin cfg0.N) : Vec Ideal S1x64x512 .f32 := iblk m c 0 t
abbrev nodeBlk (c : Dev nD) (t : Fin cfg0.N) : Vec Ideal S1x64x512 .f32 := iblk m c 1 t
abbrev edgeBlk (c : Dev nD) (t : Fin cfg0.N) : Vec Ideal S1x64x64x512 .f32 := iblk m c 2 t
abbrev pairBlk (c : Dev nD) (t : Fin cfg0.N) : Vec Ideal S1x256x2 .i32 := iblk m c 3 t

theorem objBlk_apply (c : Dev nD) (t : Fin cfg0.N) (k : Fin 64) (cc : Fin 512) :
    objBlk m c t (ix3 (0 : Fin 1) k cc) = V m c main_arg0 (ix3 (batch t) k cc) := by
  obtain ⟨⟨e0, e1, e2⟩, -⟩ := index_facts t
  show V m c main_arg0 (((cfg0.win 0).blk t).view.emb (ix3 (0 : Fin 1) k cc)) = _
  refine congrArg _ (funext fun a => Fin.ext ?_)
  match a with
  | ⟨0, _⟩ => show win0_0.index t (0 : Fin 3) * 1 + 1 * (0 : Nat) = t.val / 2; omega
  | ⟨1, _⟩ => show win0_0.index t (1 : Fin 3) * 64 + 1 * k.val = k.val; omega
  | ⟨2, _⟩ => show win0_0.index t (2 : Fin 3) * 512 + 1 * cc.val = cc.val; omega

theorem nodeBlk_apply (c : Dev nD) (t : Fin cfg0.N) (k : Fin 64) (cc : Fin 512) :
    nodeBlk m c t (ix3 (0 : Fin 1) k cc) = V m c main_arg1 (ix3 (batch t) k cc) := by
  obtain ⟨-, ⟨e0, e1, e2⟩, -⟩ := index_facts t
  show V m c main_arg1 (((cfg0.win 1).blk t).view.emb (ix3 (0 : Fin 1) k cc)) = _
  refine congrArg _ (funext fun a => Fin.ext ?_)
  match a with
  | ⟨0, _⟩ => show win0_1.index t (0 : Fin 3) * 1 + 1 * (0 : Nat) = t.val / 2; omega
  | ⟨1, _⟩ => show win0_1.index t (1 : Fin 3) * 64 + 1 * k.val = k.val; omega
  | ⟨2, _⟩ => show win0_1.index t (2 : Fin 3) * 512 + 1 * cc.val = cc.val; omega

theorem edgeBlk_apply (c : Dev nD) (t : Fin cfg0.N) (a b : Fin 64) (cc : Fin 512) :
    edgeBlk m c t (ix4 (0 : Fin 1) a b cc) = V m c main_arg2 (ix4 (batch t) a b cc) := by
  obtain ⟨-, -, ⟨e0, e1, e2, e3⟩, -⟩ := index_facts t
  show V m c main_arg2 (((cfg0.win 2).blk t).view.emb (ix4 (0 : Fin 1) a b cc)) = _
  refine congrArg _ (funext fun x => Fin.ext ?_)
  match x with
  | ⟨0, _⟩ => show win0_2.index t (0 : Fin 4) * 1 + 1 * (0 : Nat) = t.val / 2; omega
  | ⟨1, _⟩ => show win0_2.index t (1 : Fin 4) * 64 + 1 * a.val = a.val; omega
  | ⟨2, _⟩ => show win0_2.index t (2 : Fin 4) * 64 + 1 * b.val = b.val; omega
  | ⟨3, _⟩ => show win0_2.index t (3 : Fin 4) * 512 + 1 * cc.val = cc.val; omega

/-- The two words the body loads for pair `p` are the pair's two words in the whole array. -/
theorem word0_eq (c : Dev nD) (t : Fin cfg0.N) (p : Fin 256) :
    View.ld (pairBlk m c t) r0_0 (ix3 (0 : Fin 1) p (0 : Fin 1)) = V m c main_arg3 (ix3 (batch t) (pairOf t p) (0 : Fin 2)) := by
  obtain ⟨-, -, -, ⟨e0, e1, e2⟩, -⟩ := index_facts t
  show V m c main_arg3 (((cfg0.win 3).blk t).view.emb (r0_0.idx (ix3 (0 : Fin 1) p (0 : Fin 1)))) = _
  refine congrArg _ (funext fun a => Fin.ext ?_)
  match a with
  | ⟨0, _⟩ => show win0_3.index t (0 : Fin 3) * 1 + 1 * ((0 : Nat) + 1 * 0) = t.val / 2; omega
  | ⟨1, _⟩ => show win0_3.index t (1 : Fin 3) * 256 + 1 * ((0 : Nat) + 1 * p.val) = t.val % 2 * 256 + p.val; omega
  | ⟨2, _⟩ => show win0_3.index t (2 : Fin 3) * 2 + 1 * ((0 : Nat) + 1 * 0) = 0; omega

theorem word1_eq (c : Dev nD) (t : Fin cfg0.N) (p : Fin 256) :
    View.ld (pairBlk m c t) r0_1 (ix3 (0 : Fin 1) p (0 : Fin 1)) = V m c main_arg3 (ix3 (batch t) (pairOf t p) (1 : Fin 2)) := by
  obtain ⟨-, -, -, ⟨e0, e1, e2⟩, -⟩ := index_facts t
  show V m c main_arg3 (((cfg0.win 3).blk t).view.emb (r0_1.idx (ix3 (0 : Fin 1) p (0 : Fin 1)))) = _
  refine congrArg _ (funext fun a => Fin.ext ?_)
  match a with
  | ⟨0, _⟩ => show win0_3.index t (0 : Fin 3) * 1 + 1 * ((0 : Nat) + 1 * 0) = t.val / 2; omega
  | ⟨1, _⟩ => show win0_3.index t (1 : Fin 3) * 256 + 1 * ((0 : Nat) + 1 * p.val) = t.val % 2 * 256 + p.val; omega
  | ⟨2, _⟩ => show win0_3.index t (2 : Fin 3) * 2 + 1 * ((1 : Nat) + 1 * 0) = 1; omega

/-- Entry `(0, p, j)` of point `t`'s output block sits at `(batch, pair, j)` of the output array. -/
theorem out_emb (t : Fin cfg0.N) (p : Fin 256) (j : Fin 1536) :
    ((cfg0.win 4).blk t).view.emb (ix3 (0 : Fin 1) p j) = ix3 (batch t) (pairOf t p) j := by
  obtain ⟨-, -, -, -, ⟨e0, e1, e2⟩⟩ := index_facts t
  refine funext fun a => Fin.ext ?_
  match a with
  | ⟨0, _⟩ => show win0_4.index t (0 : Fin 3) * 1 + 1 * (0 : Nat) = t.val / 2; omega
  | ⟨1, _⟩ => show win0_4.index t (1 : Fin 3) * 256 + 1 * p.val = t.val % 2 * 256 + p.val; omega
  | ⟨2, _⟩ => show win0_4.index t (2 : Fin 3) * 1536 + 1 * j.val = j.val; omega

/-! ## What a point writes back is its block of the result -/

/-- WHAT POINT `t` WRITES BACK is block `t` of the specification's result of the argument arrays, when every index word of
    `pairs` is below 64. -/
theorem flushed_eq (c : Dev nD) (t : Fin cfg0.N) (hP : ∀ i : S64x512x2.Idx, (V m c main_arg3 i).toNat < 64) :
    (dats m 0 c).flushed 4 t
      = ((cfg0.win 4).blk t).view.read (Elt Ideal)
          (result (V m c main_arg0) (V m c main_arg1) (V m c main_arg2) (V m c main_arg3)) := by
  rw [Cert.KernelIdeal.Value.flushed4]
  unfold out0_4
  rw [View.canon_unit_zero zero3]
  simp only [View.ld_unit_zero (S := S1x64x512) zero3, View.ld_unit_zero (S := S1x64x64x512) zero4]
  funext y
  obtain ⟨y0, p, j, rfl⟩ : ∃ (y0 : Fin 1) (p : Fin 256) (j : Fin 1536), y = ix3 y0 p j := ⟨y 0, y 1, y 2, eq_ix3 y⟩
  obtain rfl : y0 = 0 := Subsingleton.elim _ _
  show k0_pay1 (k0_pay2 (View.ld (pairBlk m c t) r0_0))
        (k0_pay4 (View.ld (pairBlk m c t) r0_0) (View.ld (pairBlk m c t) r0_1) (nodeBlk m c t) (objBlk m c t))
        (k0_pay5 (edgeBlk m c t)) (k0_pay6 (View.ld (pairBlk m c t) r0_0) (View.ld (pairBlk m c t) r0_1))
        (k0_pay7 (View.ld (pairBlk m c t) r0_1)) (ix3 (0 : Fin 1) p j)
      = result (V m c main_arg0) (V m c main_arg1) (V m c main_arg2) (V m c main_arg3)
          (((cfg0.win 4).blk t).view.emb (ix3 (0 : Fin 1) p j))
  refine (payload_apply (View.ld (pairBlk m c t) r0_0) (View.ld (pairBlk m c t) r0_1) (nodeBlk m c t) (objBlk m c t)
    (edgeBlk m c t) p j ?_ ?_).trans ?_
  · rw [word0_eq]; exact hP _
  · rw [word1_eq]; exact hP _
  have e1 : (fun (k : Fin 64) (cc : Fin 512) => nodeBlk m c t (ix3 (0 : Fin 1) k cc))
      = fun k cc => V m c main_arg1 (ix3 (batch t) k cc) := funext fun k => funext fun cc => nodeBlk_apply m c t k cc
  have e2 : (fun (k : Fin 64) (cc : Fin 512) => objBlk m c t (ix3 (0 : Fin 1) k cc))
      = fun k cc => V m c main_arg0 (ix3 (batch t) k cc) := funext fun k => funext fun cc => objBlk_apply m c t k cc
  have e3 : (fun (a b : Fin 64) (cc : Fin 512) => edgeBlk m c t (ix4 (0 : Fin 1) a b cc))
      = fun a b cc => V m c main_arg2 (ix4 (batch t) a b cc) :=
    funext fun a => funext fun b => funext fun cc => edgeBlk_apply m c t a b cc
  rw [out_emb, word0_eq, word1_eq, e1, e2, e3]
  rfl

/-! ## The blocks tile the output -/

/-- An index of the output array is in point `t`'s block iff each coordinate is in the block's range on its axis. -/
theorem mem_blk (t : Fin cfg0.N) (i : S64x512x1536.Idx) :
    i ∈ ((cfg0.win 4).blk t).view.set ↔ ∀ a : Fin 3, win0_4.index t a * S1x256x1536.size a ≤ (i a).val
      ∧ (i a).val < win0_4.index t a * S1x256x1536.size a + S1x256x1536.size a := by
  show i ∈ ((View.whole main_v0).slice (win0_4.rect t)).set ↔ _
  rw [View.set_slice_whole, Rect.mem_set_unit]
  exact Iff.rfl

/-- Every index `(b, q, j)` of the output is in the block of the point of batch `b` and tile `q / 256`. -/
theorem covered (i : S64x512x1536.Idx) :
    ∃ t : Fin cfg0.N, (cfg0.win 4).flush t = true ∧ i ∈ ((cfg0.win 4).blk t).view.set := by
  have h0 : (i 0).val < 64 := (i 0).isLt
  have h1 : (i 1).val < 512 := (i 1).isLt
  have h2 : (i 2).val < 1536 := (i 2).isLt
  obtain ⟨t, tv⟩ : ∃ t : Fin cfg0.N, t.val = (i 0).val * 2 + (i 1).val / 256 :=
    ⟨⟨(i 0).val * 2 + (i 1).val / 256, by show _ < 128; omega⟩, rfl⟩
  obtain ⟨-, -, -, -, ⟨e0, e1, e2⟩⟩ := index_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 1536 ≤ (i 2).val ∧ (i 2).val < win0_4.index t (2 : Fin 3) * 1536 + 1536
    omega

/-! ## The output array after the run -/

/-- THE OUTPUT ARRAY after the run is the specification's result of the argument arrays. -/
theorem final (c : Dev nD) (hP : ∀ i : S64x512x2.Idx, (m ((c : Thread nD τ).loc main_arg3) i).toNat < 64) :
    (dats m 0 c).arrAt 4 cfg0.N
      = result (m ((c : Thread nD τ).loc main_arg0)) (m ((c : Thread nD τ).loc main_arg1))
          (m ((c : Thread nD τ).loc main_arg2)) (m ((c : Thread nD τ).loc main_arg3)) :=
  (dats m 0 c).arrAt_eq_of_cover 4
    (result (V m c main_arg0) (V m c main_arg1) (V m c main_arg2) (V m c main_arg3))
    (fun t _ => flushed_eq m c t hP) covered

/-- The kernel's run, with its result array named: the specification's result of the arguments, which end unchanged. -/
theorem run (hP : ∀ (c : Dev nD) (i : S64x512x2.Idx), (m ((c : Thread nD τ).loc main_arg3) i).toNat < 64) :
    θ_run defs (onTc (τ := τ) (main (F := Ideal))) ⟨m, fun _ => 0, ρ⟩ fun r => ∀ c : Dev nD,
      r.2.mem ((c : Thread nD τ).loc main_v0)
          = result (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hP c)), (h c).2⟩)
    (Cert.KernelIdeal.Value.run_blocks m ρ)

end Cert.GatherMean.KernelArray

end
-- ==== Proof.RefValue.lean ====
/-
  The reference program's result, read index by index, is the specified array.

  The program gathers rows by index vectors. Each index vector is (batch number, row word) or (batch number, row word,
  row word), every component passed through the wrap "w < 0 ? w + 64 : w", and a gather reads each component signed and
  clamped into 0 … 63. The batch number is below 64, and so are the pair's two words by hypothesis: such a word is
  nonnegative as a signed number, so the wrap leaves it alone and the clamp returns it. Hence
    the node and object gathers read row pairs[b, p, c] of batch b's table, and
    the edge gathers read entry (pairs[b, p, 0], pairs[b, p, 1]) and its transpose,
  and the three bands of 512 columns of result row (b, p) are ½ · (node + object) at the first row, the same at the second
  row, and ½ · (edge + transposed edge) — the constant ½ the same word on both sides.

  Sections: the index words; the two gathers read at an index (one lemma per dimension record); the concatenations read
  at an index; the index vectors' components stage by stage; the six gathers and the three bands; the theorem.
-/
import proofs.«427924_j36180804502188_2_alg».proof.Proof.Spec
import proofs.«427924_j36180804502188_2_alg».proof.Proof.RefRead
import Idealize.ShloMosaic.Lib.ValueIdx
import Idealize.ShloMosaic.Lib.Pipeline.Value
import Idealize.ShloMosaic.Lib.StableHlo.Predicate

noncomputable section

namespace Cert.GatherMean.Ref

open Idealize.ShloMosaic Idealize.ShloMosaic.ValueIdx Idealize.ShloMosaic.StableHlo.Predicate
open Cert.ReferenceIdeal Cert.ReferenceIdeal.ReadP

/-! ## Index words -/

/-- A start-index word as a gather reads it: signed, clamped into the 64 rows. -/
def clampRow (w : BitVec 32) : Fin 64 := ⟨min w.toInt.toNat 63, by omega⟩

theorem clampRow_val_of_lt {w : BitVec 32} (hw : w.toNat < 64) : (clampRow w).val = w.toNat := by
  show min w.toInt.toNat 63 = w.toNat
  rw [toInt_eq_toNat_of_lt (by omega), Int.toNat_natCast]
  omega

/-- The word of a batch number below 64 is read back as that number. -/
theorem clampRow_ofNat (b : Fin 64) : clampRow (BitVec.ofNat 32 b.val) = b := by
  refine Fin.ext ?_
  have hb : (BitVec.ofNat 32 b.val).toNat = b.val := by
    rw [BitVec.toNat_ofNat]; have := b.isLt; omega
  rw [clampRow_val_of_lt (by rw [hb]; exact b.isLt), hb]

/-- The negative-index wrap "w < 0 ? w + 64 : w" leaves a word below 64 alone. -/
theorem wrap_of_lt (w : BitVec 32) (hw : w.toNat < 64) :
    Scalar.select (IntOp.cmpi .slt w 0#32) (IntOp.addi w 64#32) w = w := by
  have h0 : IntOp.cmpi .slt w 0#32 = 0#1 := eq_zero_of_ne_one (fun h1 => by
    have h2 := (slt_iff_toNat (a := w) (b := 0#32) (by omega) (by decide)).mp h1
    have h3 : (0#32 : BitVec 32).toNat = 0 := rfl
    omega)
  rw [h0, select_zero]

/-! ## The two gathers read at an index -/

section Gather
variable [Facts₀] {α : Type}

local notation "G3" => gather_S64x64x512_S64x512x2_S64x512x512_2_01_n_n_01_2_11512
local notation "G4" => gather_S64x64x64x512_S64x512x3_S64x512x512_2_012_n_n_012_2_111512

/-- A row gather from a [64, 64, 512] table at start indices [64, 512, 2]: result (b, p, j) is the table at the two
    clamped components of start index (b, p) and column j. -/
theorem gather3_apply (x : S64x64x512.Idx → α) (idx : IVec S64x512x2 32) (b : Fin 64) (p : Fin 512) (j : Fin 512) :
    Host.gather G3 x idx (ix3 b p j)
      = x (ix3 (clampRow (idx (ix3 b p (0 : Fin 2)))) (clampRow (idx (ix3 b p (1 : Fin 2)))) j) := by
  unfold Host.gather
  congr 1
  funext a
  refine Fin.ext ?_
  match a with
  | ⟨0, _⟩ =>
    show (G3).start (ix3 b p j) idx 0 + (G3).batchCoord (ix3 b p j) 0 + (G3).offCoord (ix3 b p j) 0 = _
    rw [GatherDims.batchCoord_eq_zero _ _ _ List.not_mem_nil,
      GatherDims.offCoord_eq_zero _ _ _ (fun h => ((GatherDims.mem_sKept _ _).mp h).1
        (show (0 : Fin 3) ∈ [(0 : Fin 3), 1] by decide))]
    simp only [Nat.add_zero]
    unfold GatherDims.start
    rw [dif_pos (show (0 : Fin 3) ∈ (G3).startIndexMap from (show (0 : Fin 3) ∈ [(0 : Fin 3), 1] by decide))]
    have hsi : (G3).siIdx (ix3 b p j) ⟨List.idxOf (0 : Fin 3) (G3).startIndexMap,
        List.idxOf_lt_length_iff.2 (show (0 : Fin 3) ∈ [(0 : Fin 3), 1] by decide)⟩ = ix3 b p (0 : Fin 2) := by
      funext c; refine Fin.ext ?_
      match c with
      | ⟨0, _⟩ => rfl
      | ⟨1, _⟩ => rfl
      | ⟨2, _⟩ => rfl
    rw [hsi]
    rfl
  | ⟨1, _⟩ =>
    show (G3).start (ix3 b p j) idx 1 + (G3).batchCoord (ix3 b p j) 1 + (G3).offCoord (ix3 b p j) 1 = _
    rw [GatherDims.batchCoord_eq_zero _ _ _ List.not_mem_nil,
      GatherDims.offCoord_eq_zero _ _ _ (fun h => ((GatherDims.mem_sKept _ _).mp h).1
        (show (1 : Fin 3) ∈ [(0 : Fin 3), 1] by decide))]
    simp only [Nat.add_zero]
    unfold GatherDims.start
    rw [dif_pos (show (1 : Fin 3) ∈ (G3).startIndexMap from (show (1 : Fin 3) ∈ [(0 : Fin 3), 1] by decide))]
    have hsi : (G3).siIdx (ix3 b p j) ⟨List.idxOf (1 : Fin 3) (G3).startIndexMap,
        List.idxOf_lt_length_iff.2 (show (1 : Fin 3) ∈ [(0 : Fin 3), 1] by decide)⟩ = ix3 b p (1 : Fin 2) := by
      funext c; refine Fin.ext ?_
      match c with
      | ⟨0, _⟩ => rfl
      | ⟨1, _⟩ => rfl
      | ⟨2, _⟩ => rfl
    rw [hsi]
    rfl
  | ⟨2, _⟩ =>
    show (G3).start (ix3 b p j) idx 2 + (G3).batchCoord (ix3 b p j) 2 + (G3).offCoord (ix3 b p j) 2 = j.val
    rw [GatherDims.batchCoord_eq_zero _ _ _ List.not_mem_nil]
    unfold GatherDims.start GatherDims.offCoord
    rw [dif_neg (show ¬ (2 : Fin 3) ∈ (G3).startIndexMap from (show ¬ (2 : Fin 3) ∈ [(0 : Fin 3), 1] by decide)),
      dif_pos (show (2 : Fin 3) ∈ (G3).sKept from (show (2 : Fin 3) ∈ [(2 : Fin 3)] by decide))]
    simp only [Nat.add_zero, Nat.zero_add]
    rfl

/-- A row gather from the [64, 64, 64, 512] table at start indices [64, 512, 3]: result (b, p, j) is the table at the three
    clamped components of start index (b, p) and column j. -/
theorem gather4_apply (x : S64x64x64x512.Idx → α) (idx : IVec S64x512x3 32) (b : Fin 64) (p : Fin 512) (j : Fin 512) :
    Host.gather G4 x idx (ix3 b p j)
      = x (ix4 (clampRow (idx (ix3 b p (0 : Fin 3)))) (clampRow (idx (ix3 b p (1 : Fin 3))))
              (clampRow (idx (ix3 b p (2 : Fin 3)))) j) := by
  unfold Host.gather
  congr 1
  funext a
  refine Fin.ext ?_
  match a with
  | ⟨0, _⟩ =>
    show (G4).start (ix3 b p j) idx 0 + (G4).batchCoord (ix3 b p j) 0 + (G4).offCoord (ix3 b p j) 0 = _
    rw [GatherDims.batchCoord_eq_zero _ _ _ List.not_mem_nil,
      GatherDims.offCoord_eq_zero _ _ _ (fun h => ((GatherDims.mem_sKept _ _).mp h).1
        (show (0 : Fin 4) ∈ [(0 : Fin 4), 1, 2] by decide))]
    simp only [Nat.add_zero]
    unfold GatherDims.start
    rw [dif_pos (show (0 : Fin 4) ∈ (G4).startIndexMap from (show (0 : Fin 4) ∈ [(0 : Fin 4), 1, 2] by decide))]
    have hsi : (G4).siIdx (ix3 b p j) ⟨List.idxOf (0 : Fin 4) (G4).startIndexMap,
        List.idxOf_lt_length_iff.2 (show (0 : Fin 4) ∈ [(0 : Fin 4), 1, 2] by decide)⟩ = ix3 b p (0 : Fin 3) := by
      funext c; refine Fin.ext ?_
      match c with
      | ⟨0, _⟩ => rfl
      | ⟨1, _⟩ => rfl
      | ⟨2, _⟩ => rfl
    rw [hsi]
    rfl
  | ⟨1, _⟩ =>
    show (G4).start (ix3 b p j) idx 1 + (G4).batchCoord (ix3 b p j) 1 + (G4).offCoord (ix3 b p j) 1 = _
    rw [GatherDims.batchCoord_eq_zero _ _ _ List.not_mem_nil,
      GatherDims.offCoord_eq_zero _ _ _ (fun h => ((GatherDims.mem_sKept _ _).mp h).1
        (show (1 : Fin 4) ∈ [(0 : Fin 4), 1, 2] by decide))]
    simp only [Nat.add_zero]
    unfold GatherDims.start
    rw [dif_pos (show (1 : Fin 4) ∈ (G4).startIndexMap from (show (1 : Fin 4) ∈ [(0 : Fin 4), 1, 2] by decide))]
    have hsi : (G4).siIdx (ix3 b p j) ⟨List.idxOf (1 : Fin 4) (G4).startIndexMap,
        List.idxOf_lt_length_iff.2 (show (1 : Fin 4) ∈ [(0 : Fin 4), 1, 2] by decide)⟩ = ix3 b p (1 : Fin 3) := by
      funext c; refine Fin.ext ?_
      match c with
      | ⟨0, _⟩ => rfl
      | ⟨1, _⟩ => rfl
      | ⟨2, _⟩ => rfl
    rw [hsi]
    rfl
  | ⟨2, _⟩ =>
    show (G4).start (ix3 b p j) idx 2 + (G4).batchCoord (ix3 b p j) 2 + (G4).offCoord (ix3 b p j) 2 = _
    rw [GatherDims.batchCoord_eq_zero _ _ _ List.not_mem_nil,
      GatherDims.offCoord_eq_zero _ _ _ (fun h => ((GatherDims.mem_sKept _ _).mp h).1
        (show (2 : Fin 4) ∈ [(0 : Fin 4), 1, 2] by decide))]
    simp only [Nat.add_zero]
    unfold GatherDims.start
    rw [dif_pos (show (2 : Fin 4) ∈ (G4).startIndexMap from (show (2 : Fin 4) ∈ [(0 : Fin 4), 1, 2] by decide))]
    have hsi : (G4).siIdx (ix3 b p j) ⟨List.idxOf (2 : Fin 4) (G4).startIndexMap,
        List.idxOf_lt_length_iff.2 (show (2 : Fin 4) ∈ [(0 : Fin 4), 1, 2] by decide)⟩ = ix3 b p (2 : Fin 3) := by
      funext c; refine Fin.ext ?_
      match c with
      | ⟨0, _⟩ => rfl
      | ⟨1, _⟩ => rfl
      | ⟨2, _⟩ => rfl
    rw [hsi]
    rfl
  | ⟨3, _⟩ =>
    show (G4).start (ix3 b p j) idx 3 + (G4).batchCoord (ix3 b p j) 3 + (G4).offCoord (ix3 b p j) 3 = j.val
    rw [GatherDims.batchCoord_eq_zero _ _ _ List.not_mem_nil]
    unfold GatherDims.start GatherDims.offCoord
    rw [dif_neg (show ¬ (3 : Fin 4) ∈ (G4).startIndexMap from (show ¬ (3 : Fin 4) ∈ [(0 : Fin 4), 1, 2] by decide)),
      dif_pos (show (3 : Fin 4) ∈ (G4).sKept from (show (3 : Fin 4) ∈ [(3 : Fin 4)] by decide))]
    simp only [Nat.add_zero, Nat.zero_add]
    rfl

end Gather

/-! ## The concatenations read at an index -/

section Concat
variable {β : Type}

/-- Two [64, 512, 1] pieces joined on the last axis: component 0 is the first piece … -/
theorem cat2_at0 (y0 y1 : S64x512x1.Idx → β) (h : Shape.Concatenates [S64x512x1, S64x512x1] S64x512x2 2)
    (b : Fin 64) (p : Fin 512) :
    concatenate S64x512x2 2 [⟨S64x512x1, y0⟩, ⟨S64x512x1, y1⟩] h (ix3 b p (0 : Fin 2)) = y0 (ix3 b p (0 : Fin 1)) :=
  concatenate_pair_apply_left 2 y0 y1 h (ix3 b p (0 : Fin 2)) rfl (ix3 b p (0 : Fin 1))
    (fun a => match a with | ⟨0, _⟩ => rfl | ⟨1, _⟩ => rfl | ⟨2, _⟩ => rfl)

/-- … and component 1 the second. -/
theorem cat2_at1 (y0 y1 : S64x512x1.Idx → β) (h : Shape.Concatenates [S64x512x1, S64x512x1] S64x512x2 2)
    (b : Fin 64) (p : Fin 512) :
    concatenate S64x512x2 2 [⟨S64x512x1, y0⟩, ⟨S64x512x1, y1⟩] h (ix3 b p (1 : Fin 2)) = y1 (ix3 b p (0 : Fin 1)) :=
  concatenate_pair_apply_right 2 y0 y1 h (ix3 b p (1 : Fin 2)) rfl rfl (ix3 b p (0 : Fin 1))
    (fun a => match a with
      | ⟨0, _⟩ => fun _ => rfl
      | ⟨1, _⟩ => fun _ => rfl
      | ⟨2, _⟩ => fun hne => absurd rfl hne)
    rfl

/-- Three [64, 512, 1] pieces joined on the last axis: component 0 … -/
theorem cat3_at0 (y0 y1 y2 : S64x512x1.Idx → β)
    (h : Shape.Concatenates [S64x512x1, S64x512x1, S64x512x1] S64x512x3 2) (b : Fin 64) (p : Fin 512) :
    concatenate S64x512x3 2 [⟨S64x512x1, y0⟩, ⟨S64x512x1, y1⟩, ⟨S64x512x1, y2⟩] h (ix3 b p (0 : Fin 3))
      = y0 (ix3 b p (0 : Fin 1)) :=
  concatenate_apply_piece 2 [⟨S64x512x1, y0⟩, ⟨S64x512x1, y1⟩, ⟨S64x512x1, y2⟩] h (ix3 b p (0 : Fin 3))
    0 (show (0 : Nat) < 3 by omega) S64x512x1 y0 rfl rfl 0 rfl (ix3 b p (0 : Fin 1))
    (fun a => match a with
      | ⟨0, _⟩ => fun _ => rfl
      | ⟨1, _⟩ => fun _ => rfl
      | ⟨2, _⟩ => fun hne => absurd rfl hne)
    rfl

/-- … component 1 … -/
theorem cat3_at1 (y0 y1 y2 : S64x512x1.Idx → β)
    (h : Shape.Concatenates [S64x512x1, S64x512x1, S64x512x1] S64x512x3 2) (b : Fin 64) (p : Fin 512) :
    concatenate S64x512x3 2 [⟨S64x512x1, y0⟩, ⟨S64x512x1, y1⟩, ⟨S64x512x1, y2⟩] h (ix3 b p (1 : Fin 3))
      = y1 (ix3 b p (0 : Fin 1)) :=
  concatenate_apply_piece 2 [⟨S64x512x1, y0⟩, ⟨S64x512x1, y1⟩, ⟨S64x512x1, y2⟩] h (ix3 b p (1 : Fin 3))
    1 (show (1 : Nat) < 3 by omega) S64x512x1 y1 rfl rfl 1 rfl (ix3 b p (0 : Fin 1))
    (fun a => match a with
      | ⟨0, _⟩ => fun _ => rfl
      | ⟨1, _⟩ => fun _ => rfl
      | ⟨2, _⟩ => fun hne => absurd rfl hne)
    rfl

/-- … and component 2. -/
theorem cat3_at2 (y0 y1 y2 : S64x512x1.Idx → β)
    (h : Shape.Concatenates [S64x512x1, S64x512x1, S64x512x1] S64x512x3 2) (b : Fin 64) (p : Fin 512) :
    concatenate S64x512x3 2 [⟨S64x512x1, y0⟩, ⟨S64x512x1, y1⟩, ⟨S64x512x1, y2⟩] h (ix3 b p (2 : Fin 3))
      = y2 (ix3 b p (0 : Fin 1)) :=
  concatenate_apply_piece 2 [⟨S64x512x1, y0⟩, ⟨S64x512x1, y1⟩, ⟨S64x512x1, y2⟩] h (ix3 b p (2 : Fin 3))
    2 (show (2 : Nat) < 3 by omega) S64x512x1 y2 rfl rfl 2 rfl (ix3 b p (0 : Fin 1))
    (fun a => match a with
      | ⟨0, _⟩ => fun _ => rfl
      | ⟨1, _⟩ => fun _ => rfl
      | ⟨2, _⟩ => fun hne => absurd rfl hne)
    rfl

/-- Two [64, 512, 512] pieces joined on the last axis: a column below 512 is the first piece's … -/
theorem catM_lo (y0 y1 : S64x512x512.Idx → β) (h : Shape.Concatenates [S64x512x512, S64x512x512] S64x512x1024 2)
    (b : Fin 64) (p : Fin 512) (j : Fin 1024) (hj : j.val < 512) :
    concatenate S64x512x1024 2 [⟨S64x512x512, y0⟩, ⟨S64x512x512, y1⟩] h (ix3 b p j) = y0 (ix3 b p (⟨j.val, hj⟩ : Fin 512)) :=
  concatenate_pair_apply_left 2 y0 y1 h (ix3 b p j) rfl (ix3 b p (⟨j.val, hj⟩ : Fin 512))
    (fun a => match a with | ⟨0, _⟩ => rfl | ⟨1, _⟩ => rfl | ⟨2, _⟩ => rfl)

/-- … and a column from 512 on the second piece's, 512 less. -/
theorem catM_hi (y0 y1 : S64x512x512.Idx → β) (h : Shape.Concatenates [S64x512x512, S64x512x512] S64x512x1024 2)
    (b : Fin 64) (p : Fin 512) (j : Fin 1024) (hj : 512 ≤ j.val) :
    concatenate S64x512x1024 2 [⟨S64x512x512, y0⟩, ⟨S64x512x512, y1⟩] h (ix3 b p j)
      = y1 (ix3 b p (⟨j.val - 512, by have := j.isLt; omega⟩ : Fin 512)) :=
  concatenate_pair_apply_right 2 y0 y1 h (ix3 b p j) rfl rfl (ix3 b p (⟨j.val - 512, by have := j.isLt; omega⟩ : Fin 512))
    (fun a => match a with
      | ⟨0, _⟩ => fun _ => rfl
      | ⟨1, _⟩ => fun _ => rfl
      | ⟨2, _⟩ => fun hne => absurd rfl hne)
    (by show j.val - 512 + 512 = j.val; omega)

/-- A [64, 512, 1024] and a [64, 512, 512] piece joined on the last axis: a column below 1024 is the first piece's … -/
theorem catO_lo (y0 : S64x512x1024.Idx → β) (y1 : S64x512x512.Idx → β)
    (h : Shape.Concatenates [S64x512x1024, S64x512x512] S64x512x1536 2)
    (b : Fin 64) (p : Fin 512) (j : Fin 1536) (hj : j.val < 1024) :
    concatenate S64x512x1536 2 [⟨S64x512x1024, y0⟩, ⟨S64x512x512, y1⟩] h (ix3 b p j) = y0 (ix3 b p (⟨j.val, hj⟩ : Fin 1024)) :=
  concatenate_pair_apply_left 2 y0 y1 h (ix3 b p j) rfl (ix3 b p (⟨j.val, hj⟩ : Fin 1024))
    (fun a => match a with | ⟨0, _⟩ => rfl | ⟨1, _⟩ => rfl | ⟨2, _⟩ => rfl)

/-- … and a column from 1024 on the second piece's, 1024 less. -/
theorem catO_hi (y0 : S64x512x1024.Idx → β) (y1 : S64x512x512.Idx → β)
    (h : Shape.Concatenates [S64x512x1024, S64x512x512] S64x512x1536 2)
    (b : Fin 64) (p : Fin 512) (j : Fin 1536) (hj : 1024 ≤ j.val) :
    concatenate S64x512x1536 2 [⟨S64x512x1024, y0⟩, ⟨S64x512x512, y1⟩] h (ix3 b p j)
      = y1 (ix3 b p (⟨j.val - 1024, by have := j.isLt; omega⟩ : Fin 512)) :=
  concatenate_pair_apply_right 2 y0 y1 h (ix3 b p j) rfl rfl (ix3 b p (⟨j.val - 1024, by have := j.isLt; omega⟩ : Fin 512))
    (fun a => match a with
      | ⟨0, _⟩ => fun _ => rfl
      | ⟨1, _⟩ => fun _ => rfl
      | ⟨2, _⟩ => fun hne => absurd rfl hne)
    (by show j.val - 1024 + 1024 = j.val; omega)

end Concat

/-! ## The index vectors' components

Every start-index vector is (batch number, row word[, row word]), each component passed through the wrap
"w < 0 ? w + 64 : w". The batch number is below 64 and so are the pair's two words (the hypothesis on the pairs), so
each wrap is the identity. -/

section Stages

/-- The pairs array's type, and the two table types. -/
abbrev I32 : Type := (⟨S64x512x2, .i32⟩ : BufTy).Contents (Elt Ideal)
abbrev F3 : Type := (⟨S64x64x512, .f32⟩ : BufTy).Contents (Elt Ideal)
abbrev F4 : Type := (⟨S64x64x64x512, .f32⟩ : BufTy).Contents (Elt Ideal)

/-- The batch-number column holds the word of the batch number. -/
theorem v5_at (i : S64x1.Idx) : val_main_v5 (F := Ideal) i = BitVec.ofNat 32 (i 0).val :=
  (val_main_v5_apply i).trans (val_main_v4_apply _)

/-- A batch number's word is below 64. -/
theorem batch_word_lt (i : S64x1.Idx) : (BitVec.ofNat 32 (i 0).val).toNat < 64 := by
  rw [BitVec.toNat_ofNat]; have : (i 0).val < 64 := (i 0).isLt; omega

/-- The wrapped batch column, and its broadcast along the pairs: still the batch number's word. -/
theorem v10_at (i : S64x1.Idx) : val_main_v10 (F := Ideal) i = BitVec.ofNat 32 (i 0).val := by
  rw [val_main_v10_apply, val_main_v7_apply, val_main_v9_apply, val_main_v6_apply, val_main_c_apply,
    val_main_v8_apply, val_main_c_0_apply, v5_at]
  exact wrap_of_lt _ (batch_word_lt i)
theorem v22_at (i : S64x512x1.Idx) : val_main_v22 (F := Ideal) i = BitVec.ofNat 32 (i 0).val :=
  (val_main_v22_apply i).trans ((val_main_v21_apply _).trans (v10_at _))

/-- The wrapped batch column, and its broadcast along the pairs: still the batch number's word. -/
theorem v31_at (i : S64x1.Idx) : val_main_v31 (F := Ideal) i = BitVec.ofNat 32 (i 0).val := by
  rw [val_main_v31_apply, val_main_v28_apply, val_main_v30_apply, val_main_v27_apply, val_main_c_5_apply,
    val_main_v29_apply, val_main_c_6_apply, v5_at]
  exact wrap_of_lt _ (batch_word_lt i)
theorem v43_at (i : S64x512x1.Idx) : val_main_v43 (F := Ideal) i = BitVec.ofNat 32 (i 0).val :=
  (val_main_v43_apply i).trans ((val_main_v42_apply _).trans (v31_at _))

/-- The wrapped batch column, and its broadcast along the pairs: still the batch number's word. -/
theorem v55_at (i : S64x1.Idx) : val_main_v55 (F := Ideal) i = BitVec.ofNat 32 (i 0).val := by
  rw [val_main_v55_apply, val_main_v52_apply, val_main_v54_apply, val_main_v51_apply, val_main_c_11_apply,
    val_main_v53_apply, val_main_c_12_apply, v5_at]
  exact wrap_of_lt _ (batch_word_lt i)
theorem v62_at (i : S64x512x1.Idx) : val_main_v62 (F := Ideal) i = BitVec.ofNat 32 (i 0).val :=
  (val_main_v62_apply i).trans ((val_main_v61_apply _).trans (v55_at _))

/-- The wrapped batch column, and its broadcast along the pairs: still the batch number's word. -/
theorem v70_at (i : S64x1.Idx) : val_main_v70 (F := Ideal) i = BitVec.ofNat 32 (i 0).val := by
  rw [val_main_v70_apply, val_main_v67_apply, val_main_v69_apply, val_main_v66_apply, val_main_c_15_apply,
    val_main_v68_apply, val_main_c_16_apply, v5_at]
  exact wrap_of_lt _ (batch_word_lt i)
theorem v77_at (i : S64x512x1.Idx) : val_main_v77 (F := Ideal) i = BitVec.ofNat 32 (i 0).val :=
  (val_main_v77_apply i).trans ((val_main_v76_apply _).trans (v70_at _))

/-- The wrapped batch column, and its broadcast along the pairs: still the batch number's word. -/
theorem v86_at (i : S64x1.Idx) : val_main_v86 (F := Ideal) i = BitVec.ofNat 32 (i 0).val := by
  rw [val_main_v86_apply, val_main_v83_apply, val_main_v85_apply, val_main_v82_apply, val_main_c_19_apply,
    val_main_v84_apply, val_main_c_20_apply, v5_at]
  exact wrap_of_lt _ (batch_word_lt i)
theorem v93_at (i : S64x512x1.Idx) : val_main_v93 (F := Ideal) i = BitVec.ofNat 32 (i 0).val :=
  (val_main_v93_apply i).trans ((val_main_v92_apply _).trans (v86_at _))

/-- The wrapped batch column, and its broadcast along the pairs: still the batch number's word. -/
theorem v101_at (i : S64x1.Idx) : val_main_v101 (F := Ideal) i = BitVec.ofNat 32 (i 0).val := by
  rw [val_main_v101_apply, val_main_v98_apply, val_main_v100_apply, val_main_v97_apply, val_main_c_23_apply,
    val_main_v99_apply, val_main_c_24_apply, v5_at]
  exact wrap_of_lt _ (batch_word_lt i)
theorem v108_at (i : S64x512x1.Idx) : val_main_v108 (F := Ideal) i = BitVec.ofNat 32 (i 0).val :=
  (val_main_v108_apply i).trans ((val_main_v107_apply _).trans (v101_at _))

/-- The pair's first word, as the slice and reshape deliver it. -/
theorem v1_at (x3 : I32) (i : S64x512.Idx) :
    val_main_v1 (F := Ideal) x3 i = x3 (ix3 (⟨(i 0).val, (i 0).isLt⟩ : Fin 64) (⟨(i 1).val, (i 1).isLt⟩ : Fin 512) (0 : Fin 2)) := by
  rw [val_main_v1_apply, val_main_v0_apply]
  congr 1
  funext a
  have h0 : (i 0).val < 64 := (i 0).isLt
  have h1 : (i 1).val < 512 := (i 1).isLt
  match a with
  | ⟨0, _⟩ => exact Fin.ext (by show ((i 0).val * 512 + (i 1).val) / 512 = (i 0).val; omega)
  | ⟨1, _⟩ => exact Fin.ext (by show ((i 0).val * 512 + (i 1).val) / 1 % 512 = (i 1).val; omega)
  | ⟨2, _⟩ => exact Fin.ext (by show (0 : Nat) = 0; rfl)

/-- The pair's second word. -/
theorem v3_at (x3 : I32) (i : S64x512.Idx) :
    val_main_v3 (F := Ideal) x3 i = x3 (ix3 (⟨(i 0).val, (i 0).isLt⟩ : Fin 64) (⟨(i 1).val, (i 1).isLt⟩ : Fin 512) (1 : Fin 2)) := by
  rw [val_main_v3_apply, val_main_v2_apply]
  congr 1
  funext a
  have h0 : (i 0).val < 64 := (i 0).isLt
  have h1 : (i 1).val < 512 := (i 1).isLt
  match a with
  | ⟨0, _⟩ => exact Fin.ext (by show ((i 0).val * 512 + (i 1).val) / 512 = (i 0).val; omega)
  | ⟨1, _⟩ => exact Fin.ext (by show ((i 0).val * 512 + (i 1).val) / 1 % 512 = (i 1).val; omega)
  | ⟨2, _⟩ => exact Fin.ext (by show 1 + 0 = 1; rfl)

/-- A wrapped copy of the pair's word 0, and its broadcast to a start-index column: the word itself. -/
theorem v15_at (x3 : I32) (h : ∀ i : S64x512x2.Idx, (x3 i).toNat < 64) (i : S64x512.Idx) :
    val_main_v15 (F := Ideal) x3 i
      = x3 (ix3 (⟨(i 0).val, (i 0).isLt⟩ : Fin 64) (⟨(i 1).val, (i 1).isLt⟩ : Fin 512) (0 : Fin 2)) := by
  rw [val_main_v15_apply, val_main_v12_apply, val_main_v14_apply, val_main_v11_apply, val_main_c_1_apply,
    val_main_v13_apply, val_main_c_2_apply, v1_at]
  exact wrap_of_lt _ (h _)
theorem v23_at (x3 : I32) (h : ∀ i : S64x512x2.Idx, (x3 i).toNat < 64) (i : S64x512x1.Idx) :
    val_main_v23 (F := Ideal) x3 i
      = x3 (ix3 (⟨(i 0).val, (i 0).isLt⟩ : Fin 64) (⟨(i 1).val, (i 1).isLt⟩ : Fin 512) (0 : Fin 2)) :=
  (val_main_v23_apply x3 i).trans (v15_at x3 h _)

/-- A wrapped copy of the pair's word 1, and its broadcast to a start-index column: the word itself. -/
theorem v20_at (x3 : I32) (h : ∀ i : S64x512x2.Idx, (x3 i).toNat < 64) (i : S64x512.Idx) :
    val_main_v20 (F := Ideal) x3 i
      = x3 (ix3 (⟨(i 0).val, (i 0).isLt⟩ : Fin 64) (⟨(i 1).val, (i 1).isLt⟩ : Fin 512) (1 : Fin 2)) := by
  rw [val_main_v20_apply, val_main_v17_apply, val_main_v19_apply, val_main_v16_apply, val_main_c_3_apply,
    val_main_v18_apply, val_main_c_4_apply, v3_at]
  exact wrap_of_lt _ (h _)
theorem v24_at (x3 : I32) (h : ∀ i : S64x512x2.Idx, (x3 i).toNat < 64) (i : S64x512x1.Idx) :
    val_main_v24 (F := Ideal) x3 i
      = x3 (ix3 (⟨(i 0).val, (i 0).isLt⟩ : Fin 64) (⟨(i 1).val, (i 1).isLt⟩ : Fin 512) (1 : Fin 2)) :=
  (val_main_v24_apply x3 i).trans (v20_at x3 h _)

/-- A wrapped copy of the pair's word 1, and its broadcast to a start-index column: the word itself. -/
theorem v36_at (x3 : I32) (h : ∀ i : S64x512x2.Idx, (x3 i).toNat < 64) (i : S64x512.Idx) :
    val_main_v36 (F := Ideal) x3 i
      = x3 (ix3 (⟨(i 0).val, (i 0).isLt⟩ : Fin 64) (⟨(i 1).val, (i 1).isLt⟩ : Fin 512) (1 : Fin 2)) := by
  rw [val_main_v36_apply, val_main_v33_apply, val_main_v35_apply, val_main_v32_apply, val_main_c_7_apply,
    val_main_v34_apply, val_main_c_8_apply, v3_at]
  exact wrap_of_lt _ (h _)
theorem v44_at (x3 : I32) (h : ∀ i : S64x512x2.Idx, (x3 i).toNat < 64) (i : S64x512x1.Idx) :
    val_main_v44 (F := Ideal) x3 i
      = x3 (ix3 (⟨(i 0).val, (i 0).isLt⟩ : Fin 64) (⟨(i 1).val, (i 1).isLt⟩ : Fin 512) (1 : Fin 2)) :=
  (val_main_v44_apply x3 i).trans (v36_at x3 h _)

/-- A wrapped copy of the pair's word 0, and its broadcast to a start-index column: the word itself. -/
theorem v41_at (x3 : I32) (h : ∀ i : S64x512x2.Idx, (x3 i).toNat < 64) (i : S64x512.Idx) :
    val_main_v41 (F := Ideal) x3 i
      = x3 (ix3 (⟨(i 0).val, (i 0).isLt⟩ : Fin 64) (⟨(i 1).val, (i 1).isLt⟩ : Fin 512) (0 : Fin 2)) := by
  rw [val_main_v41_apply, val_main_v38_apply, val_main_v40_apply, val_main_v37_apply, val_main_c_9_apply,
    val_main_v39_apply, val_main_c_10_apply, v1_at]
  exact wrap_of_lt _ (h _)
theorem v45_at (x3 : I32) (h : ∀ i : S64x512x2.Idx, (x3 i).toNat < 64) (i : S64x512x1.Idx) :
    val_main_v45 (F := Ideal) x3 i
      = x3 (ix3 (⟨(i 0).val, (i 0).isLt⟩ : Fin 64) (⟨(i 1).val, (i 1).isLt⟩ : Fin 512) (0 : Fin 2)) :=
  (val_main_v45_apply x3 i).trans (v41_at x3 h _)

/-- A wrapped copy of the pair's word 0, and its broadcast to a start-index column: the word itself. -/
theorem v60_at (x3 : I32) (h : ∀ i : S64x512x2.Idx, (x3 i).toNat < 64) (i : S64x512.Idx) :
    val_main_v60 (F := Ideal) x3 i
      = x3 (ix3 (⟨(i 0).val, (i 0).isLt⟩ : Fin 64) (⟨(i 1).val, (i 1).isLt⟩ : Fin 512) (0 : Fin 2)) := by
  rw [val_main_v60_apply, val_main_v57_apply, val_main_v59_apply, val_main_v56_apply, val_main_c_13_apply,
    val_main_v58_apply, val_main_c_14_apply, v1_at]
  exact wrap_of_lt _ (h _)
theorem v63_at (x3 : I32) (h : ∀ i : S64x512x2.Idx, (x3 i).toNat < 64) (i : S64x512x1.Idx) :
    val_main_v63 (F := Ideal) x3 i
      = x3 (ix3 (⟨(i 0).val, (i 0).isLt⟩ : Fin 64) (⟨(i 1).val, (i 1).isLt⟩ : Fin 512) (0 : Fin 2)) :=
  (val_main_v63_apply x3 i).trans (v60_at x3 h _)

/-- A wrapped copy of the pair's word 1, and its broadcast to a start-index column: the word itself. -/
theorem v75_at (x3 : I32) (h : ∀ i : S64x512x2.Idx, (x3 i).toNat < 64) (i : S64x512.Idx) :
    val_main_v75 (F := Ideal) x3 i
      = x3 (ix3 (⟨(i 0).val, (i 0).isLt⟩ : Fin 64) (⟨(i 1).val, (i 1).isLt⟩ : Fin 512) (1 : Fin 2)) := by
  rw [val_main_v75_apply, val_main_v72_apply, val_main_v74_apply, val_main_v71_apply, val_main_c_17_apply,
    val_main_v73_apply, val_main_c_18_apply, v3_at]
  exact wrap_of_lt _ (h _)
theorem v78_at (x3 : I32) (h : ∀ i : S64x512x2.Idx, (x3 i).toNat < 64) (i : S64x512x1.Idx) :
    val_main_v78 (F := Ideal) x3 i
      = x3 (ix3 (⟨(i 0).val, (i 0).isLt⟩ : Fin 64) (⟨(i 1).val, (i 1).isLt⟩ : Fin 512) (1 : Fin 2)) :=
  (val_main_v78_apply x3 i).trans (v75_at x3 h _)

/-- A wrapped copy of the pair's word 0, and its broadcast to a start-index column: the word itself. -/
theorem v91_at (x3 : I32) (h : ∀ i : S64x512x2.Idx, (x3 i).toNat < 64) (i : S64x512.Idx) :
    val_main_v91 (F := Ideal) x3 i
      = x3 (ix3 (⟨(i 0).val, (i 0).isLt⟩ : Fin 64) (⟨(i 1).val, (i 1).isLt⟩ : Fin 512) (0 : Fin 2)) := by
  rw [val_main_v91_apply, val_main_v88_apply, val_main_v90_apply, val_main_v87_apply, val_main_c_21_apply,
    val_main_v89_apply, val_main_c_22_apply, v1_at]
  exact wrap_of_lt _ (h _)
theorem v94_at (x3 : I32) (h : ∀ i : S64x512x2.Idx, (x3 i).toNat < 64) (i : S64x512x1.Idx) :
    val_main_v94 (F := Ideal) x3 i
      = x3 (ix3 (⟨(i 0).val, (i 0).isLt⟩ : Fin 64) (⟨(i 1).val, (i 1).isLt⟩ : Fin 512) (0 : Fin 2)) :=
  (val_main_v94_apply x3 i).trans (v91_at x3 h _)

/-- A wrapped copy of the pair's word 1, and its broadcast to a start-index column: the word itself. -/
theorem v106_at (x3 : I32) (h : ∀ i : S64x512x2.Idx, (x3 i).toNat < 64) (i : S64x512.Idx) :
    val_main_v106 (F := Ideal) x3 i
      = x3 (ix3 (⟨(i 0).val, (i 0).isLt⟩ : Fin 64) (⟨(i 1).val, (i 1).isLt⟩ : Fin 512) (1 : Fin 2)) := by
  rw [val_main_v106_apply, val_main_v103_apply, val_main_v105_apply, val_main_v102_apply, val_main_c_25_apply,
    val_main_v104_apply, val_main_c_26_apply, v3_at]
  exact wrap_of_lt _ (h _)
theorem v109_at (x3 : I32) (h : ∀ i : S64x512x2.Idx, (x3 i).toNat < 64) (i : S64x512x1.Idx) :
    val_main_v109 (F := Ideal) x3 i
      = x3 (ix3 (⟨(i 0).val, (i 0).isLt⟩ : Fin 64) (⟨(i 1).val, (i 1).isLt⟩ : Fin 512) (1 : Fin 2)) :=
  (val_main_v109_apply x3 i).trans (v106_at x3 h _)

/-! ## The six gathers, and the three bands of the result -/

/-- The clamped read of a word below 64 is its row number. -/
theorem clampRow_eq_row {w : BitVec 32} (hw : w.toNat < 64) : clampRow w = row w :=
  Fin.ext (by rw [clampRow_val_of_lt hw, row_val hw])

/-- A row gather at (batch, the pair's word 0): that row of the batch's table. -/
theorem v65_at (x1 : F3) (x3 : I32) (h : ∀ i : S64x512x2.Idx, (x3 i).toNat < 64) (b : Fin 64) (p : Fin 512) (j : Fin 512) :
    val_main_v65 (F := Ideal) x1 x3 (ix3 b p j) = x1 (ix3 b (row (x3 (ix3 b p (0 : Fin 2)))) j) := by
  have e0 : val_main_v64 (F := Ideal) x3 (ix3 b p (0 : Fin 2)) = BitVec.ofNat 32 b.val := by
    unfold val_main_v64; exact (cat2_at0 _ _ _ b p).trans (v62_at _)
  have e1 : val_main_v64 (F := Ideal) x3 (ix3 b p (1 : Fin 2)) = x3 (ix3 b p (0 : Fin 2)) := by
    unfold val_main_v64; exact (cat2_at1 _ _ _ b p).trans (v63_at x3 h _)
  unfold val_main_v65
  rw [gather3_apply, e0, e1, clampRow_ofNat, clampRow_eq_row (h _)]

/-- A row gather at (batch, the pair's word 1): that row of the batch's table. -/
theorem v80_at (x1 : F3) (x3 : I32) (h : ∀ i : S64x512x2.Idx, (x3 i).toNat < 64) (b : Fin 64) (p : Fin 512) (j : Fin 512) :
    val_main_v80 (F := Ideal) x1 x3 (ix3 b p j) = x1 (ix3 b (row (x3 (ix3 b p (1 : Fin 2)))) j) := by
  have e0 : val_main_v79 (F := Ideal) x3 (ix3 b p (0 : Fin 2)) = BitVec.ofNat 32 b.val := by
    unfold val_main_v79; exact (cat2_at0 _ _ _ b p).trans (v77_at _)
  have e1 : val_main_v79 (F := Ideal) x3 (ix3 b p (1 : Fin 2)) = x3 (ix3 b p (1 : Fin 2)) := by
    unfold val_main_v79; exact (cat2_at1 _ _ _ b p).trans (v78_at x3 h _)
  unfold val_main_v80
  rw [gather3_apply, e0, e1, clampRow_ofNat, clampRow_eq_row (h _)]

/-- A row gather at (batch, the pair's word 0): that row of the batch's table. -/
theorem v96_at (x0 : F3) (x3 : I32) (h : ∀ i : S64x512x2.Idx, (x3 i).toNat < 64) (b : Fin 64) (p : Fin 512) (j : Fin 512) :
    val_main_v96 (F := Ideal) x0 x3 (ix3 b p j) = x0 (ix3 b (row (x3 (ix3 b p (0 : Fin 2)))) j) := by
  have e0 : val_main_v95 (F := Ideal) x3 (ix3 b p (0 : Fin 2)) = BitVec.ofNat 32 b.val := by
    unfold val_main_v95; exact (cat2_at0 _ _ _ b p).trans (v93_at _)
  have e1 : val_main_v95 (F := Ideal) x3 (ix3 b p (1 : Fin 2)) = x3 (ix3 b p (0 : Fin 2)) := by
    unfold val_main_v95; exact (cat2_at1 _ _ _ b p).trans (v94_at x3 h _)
  unfold val_main_v96
  rw [gather3_apply, e0, e1, clampRow_ofNat, clampRow_eq_row (h _)]

/-- A row gather at (batch, the pair's word 1): that row of the batch's table. -/
theorem v111_at (x0 : F3) (x3 : I32) (h : ∀ i : S64x512x2.Idx, (x3 i).toNat < 64) (b : Fin 64) (p : Fin 512) (j : Fin 512) :
    val_main_v111 (F := Ideal) x0 x3 (ix3 b p j) = x0 (ix3 b (row (x3 (ix3 b p (1 : Fin 2)))) j) := by
  have e0 : val_main_v110 (F := Ideal) x3 (ix3 b p (0 : Fin 2)) = BitVec.ofNat 32 b.val := by
    unfold val_main_v110; exact (cat2_at0 _ _ _ b p).trans (v108_at _)
  have e1 : val_main_v110 (F := Ideal) x3 (ix3 b p (1 : Fin 2)) = x3 (ix3 b p (1 : Fin 2)) := by
    unfold val_main_v110; exact (cat2_at1 _ _ _ b p).trans (v109_at x3 h _)
  unfold val_main_v111
  rw [gather3_apply, e0, e1, clampRow_ofNat, clampRow_eq_row (h _)]

/-- The edge gather at (batch, word 0, word 1) of the pair. -/
theorem v26_at (x2 : F4) (x3 : I32) (h : ∀ i : S64x512x2.Idx, (x3 i).toNat < 64) (b : Fin 64) (p : Fin 512) (j : Fin 512) :
    val_main_v26 (F := Ideal) x2 x3 (ix3 b p j)
      = x2 (ix4 b (row (x3 (ix3 b p (0 : Fin 2)))) (row (x3 (ix3 b p (1 : Fin 2)))) j) := by
  have e0 : val_main_v25 (F := Ideal) x3 (ix3 b p (0 : Fin 3)) = BitVec.ofNat 32 b.val := by
    unfold val_main_v25; exact (cat3_at0 _ _ _ _ b p).trans (v22_at _)
  have e1 : val_main_v25 (F := Ideal) x3 (ix3 b p (1 : Fin 3)) = x3 (ix3 b p (0 : Fin 2)) := by
    unfold val_main_v25; exact (cat3_at1 _ _ _ _ b p).trans (v23_at x3 h _)
  have e2 : val_main_v25 (F := Ideal) x3 (ix3 b p (2 : Fin 3)) = x3 (ix3 b p (1 : Fin 2)) := by
    unfold val_main_v25; exact (cat3_at2 _ _ _ _ b p).trans (v24_at x3 h _)
  unfold val_main_v26
  rw [gather4_apply, e0, e1, e2, clampRow_ofNat, clampRow_eq_row (h (ix3 b p (0 : Fin 2))),
    clampRow_eq_row (h (ix3 b p (1 : Fin 2)))]

/-- The edge gather at (batch, word 1, word 0) of the pair. -/
theorem v47_at (x2 : F4) (x3 : I32) (h : ∀ i : S64x512x2.Idx, (x3 i).toNat < 64) (b : Fin 64) (p : Fin 512) (j : Fin 512) :
    val_main_v47 (F := Ideal) x2 x3 (ix3 b p j)
      = x2 (ix4 b (row (x3 (ix3 b p (1 : Fin 2)))) (row (x3 (ix3 b p (0 : Fin 2)))) j) := by
  have e0 : val_main_v46 (F := Ideal) x3 (ix3 b p (0 : Fin 3)) = BitVec.ofNat 32 b.val := by
    unfold val_main_v46; exact (cat3_at0 _ _ _ _ b p).trans (v43_at _)
  have e1 : val_main_v46 (F := Ideal) x3 (ix3 b p (1 : Fin 3)) = x3 (ix3 b p (1 : Fin 2)) := by
    unfold val_main_v46; exact (cat3_at1 _ _ _ _ b p).trans (v44_at x3 h _)
  have e2 : val_main_v46 (F := Ideal) x3 (ix3 b p (2 : Fin 3)) = x3 (ix3 b p (0 : Fin 2)) := by
    unfold val_main_v46; exact (cat3_at2 _ _ _ _ b p).trans (v45_at x3 h _)
  unfold val_main_v47
  rw [gather4_apply, e0, e1, e2, clampRow_ofNat, clampRow_eq_row (h (ix3 b p (1 : Fin 2))),
    clampRow_eq_row (h (ix3 b p (0 : Fin 2)))]

/-- Columns 0 … 511 of the node-plus-object half: ½ · (node + object) at the pair's first row. -/
theorem v115_lo (x0 x1 : F3) (x3 : I32) (h : ∀ i : S64x512x2.Idx, (x3 i).toNat < 64) (b : Fin 64) (p : Fin 512)
    (j : Fin 1024) (hj : j.val < 512) :
    val_main_v115 (F := Ideal) x0 x1 x3 (ix3 b p j)
      = half * (x1 (ix3 b (row (x3 (ix3 b p (0 : Fin 2)))) (⟨j.val, hj⟩ : Fin 512))
          + x0 (ix3 b (row (x3 (ix3 b p (0 : Fin 2)))) (⟨j.val, hj⟩ : Fin 512))) := by
  have e81 : val_main_v81 (F := Ideal) x1 x3 (ix3 b p j)
      = x1 (ix3 b (row (x3 (ix3 b p (0 : Fin 2)))) (⟨j.val, hj⟩ : Fin 512)) := by
    unfold val_main_v81; exact (catM_lo _ _ _ b p j hj).trans (v65_at x1 x3 h b p _)
  have e112 : val_main_v112 (F := Ideal) x0 x3 (ix3 b p j)
      = x0 (ix3 b (row (x3 (ix3 b p (0 : Fin 2)))) (⟨j.val, hj⟩ : Fin 512)) := by
    unfold val_main_v112; exact (catM_lo _ _ _ b p j hj).trans (v96_at x0 x3 h b p _)
  rw [val_main_v115_apply, val_main_v113_apply, e81, e112, val_main_v114_apply, val_main_cst_27_apply]
  rfl

/-- Columns 512 … 1023: the same at the pair's second row. -/
theorem v115_hi (x0 x1 : F3) (x3 : I32) (h : ∀ i : S64x512x2.Idx, (x3 i).toNat < 64) (b : Fin 64) (p : Fin 512)
    (j : Fin 1024) (hj : 512 ≤ j.val) :
    val_main_v115 (F := Ideal) x0 x1 x3 (ix3 b p j)
      = half * (x1 (ix3 b (row (x3 (ix3 b p (1 : Fin 2)))) (⟨j.val - 512, by have := j.isLt; omega⟩ : Fin 512))
          + x0 (ix3 b (row (x3 (ix3 b p (1 : Fin 2)))) (⟨j.val - 512, by have := j.isLt; omega⟩ : Fin 512))) := by
  have e81 : val_main_v81 (F := Ideal) x1 x3 (ix3 b p j)
      = x1 (ix3 b (row (x3 (ix3 b p (1 : Fin 2)))) (⟨j.val - 512, by have := j.isLt; omega⟩ : Fin 512)) := by
    unfold val_main_v81; exact (catM_hi _ _ _ b p j hj).trans (v80_at x1 x3 h b p _)
  have e112 : val_main_v112 (F := Ideal) x0 x3 (ix3 b p j)
      = x0 (ix3 b (row (x3 (ix3 b p (1 : Fin 2)))) (⟨j.val - 512, by have := j.isLt; omega⟩ : Fin 512)) := by
    unfold val_main_v112; exact (catM_hi _ _ _ b p j hj).trans (v111_at x0 x3 h b p _)
  rw [val_main_v115_apply, val_main_v113_apply, e81, e112, val_main_v114_apply, val_main_cst_27_apply]
  rfl

/-- The edge band: ½ · (edge at (first row, second row) + edge at (second row, first row)). -/
theorem v50_at (x2 : F4) (x3 : I32) (h : ∀ i : S64x512x2.Idx, (x3 i).toNat < 64) (b : Fin 64) (p : Fin 512) (j : Fin 512) :
    val_main_v50 (F := Ideal) x2 x3 (ix3 b p j)
      = half * (x2 (ix4 b (row (x3 (ix3 b p (0 : Fin 2)))) (row (x3 (ix3 b p (1 : Fin 2)))) j)
          + x2 (ix4 b (row (x3 (ix3 b p (1 : Fin 2)))) (row (x3 (ix3 b p (0 : Fin 2)))) j)) := by
  rw [val_main_v50_apply, val_main_v48_apply, v26_at x2 x3 h, v47_at x2 x3 h, val_main_v49_apply, val_main_cst_apply]
  rfl

end Stages

/-- **The reference program's result is the specified array**, for pairs whose words are row numbers below 64: band by
    band, each column is the constant ½ times the sum of the two gathered table entries. -/
theorem reference_eq_result [Cert.ReferenceIdeal.Facts]
    (x0 x1 : (⟨S64x64x512, .f32⟩ : BufTy).Contents (Elt Ideal)) (x2 : (⟨S64x64x64x512, .f32⟩ : BufTy).Contents (Elt Ideal))
    (x3 : (⟨S64x512x2, .i32⟩ : BufTy).Contents (Elt Ideal)) (h : ∀ i : S64x512x2.Idx, (x3 i).toNat < 64) :
    val_main_v116 (F := Ideal) x0 x1 x2 x3 = Cert.GatherMean.result x0 x1 x2 x3 := by
  funext i
  obtain ⟨b, p, j, rfl⟩ : ∃ (b : Fin 64) (p : Fin 512) (j : Fin 1536), i = ix3 b p j := ⟨i 0, i 1, i 2, eq_ix3 i⟩
  show val_main_v116 (F := Ideal) x0 x1 x2 x3 (ix3 b p j)
    = cell (fun k c => x1 (ix3 b k c)) (fun k c => x0 (ix3 b k c)) (fun a a' c => x2 (ix4 b a a' c))
        (row (x3 (ix3 b p (0 : Fin 2)))) (row (x3 (ix3 b p (1 : Fin 2)))) j
  by_cases h1 : j.val < 512
  · rw [cell_lo _ _ _ _ _ _ h1]
    unfold val_main_v116
    exact (catO_lo _ _ _ b p j (by omega)).trans (v115_lo x0 x1 x3 h b p _ h1)
  · by_cases h2 : j.val < 1024
    · rw [cell_mid _ _ _ _ _ _ (by omega) h2]
      unfold val_main_v116
      exact (catO_lo _ _ _ b p j h2).trans (v115_hi x0 x1 x3 h b p _ (by show 512 ≤ j.val; omega))
    · rw [cell_hi _ _ _ _ _ _ (by omega)]
      unfold val_main_v116
      exact (catO_hi _ _ _ b p j (by omega)).trans (v50_at x2 x3 h b p _)

end Cert.GatherMean.Ref

end
-- ==== Proof.lean ====
/-
  The certificate's claims, assembled.

  Both idealized programs compute ONE function of the four argument arrays, the specification's `result` (Proof/Spec.lean): for
  pair `p` of batch `b` with index words `i₀, i₁`, the row ½·(node[b,i₀] + obj[b,i₀]) ‖ ½·(node[b,i₁] + obj[b,i₁]) ‖
  ½·(edge[b,i₀,i₁] + edge[b,i₁,i₀]). The kernel reaches it by products with indicator matrices (Proof/KernelCell.lean,
  Proof/KernelArray.lean), the reference by gathers at the index words (Proof/RefValue.lean). The two agree exactly where the
  index words name rows of the tables, `0 ≤ i < 64`: outside that range the reference wraps and clamps its indices while an
  indicator row is all zero. The precondition states that range, and Proof/PreDecode.lean reads it back as `i.toNat < 64`.
  Finiteness of the float inputs is not used: a selection by weights 0 and 1 is exact on all extended reals.

  The two kernel frames are the generated ones; the reference's is its run (Proof/RefRun.lean: the operation list read window
  by window) with the result dropped; the ideal pass rewrote nothing, so `preserves` is `True`.
-/
import proofs.«427924_j36180804502188_2_alg».proof.Defs
import proofs.«427924_j36180804502188_2_alg».proof.Proof.Gen.Kernel
import proofs.«427924_j36180804502188_2_alg».proof.Proof.Gen.Kernel.Skeleton
import proofs.«427924_j36180804502188_2_alg».proof.Proof.Gen.Kernel.Launch
import proofs.«427924_j36180804502188_2_alg».proof.Proof.Gen.Kernel.Points
import proofs.«427924_j36180804502188_2_alg».proof.Proof.Gen.Kernel.Frame
import proofs.«427924_j36180804502188_2_alg».proof.Proof.Gen.KernelIdeal
import proofs.«427924_j36180804502188_2_alg».proof.Proof.Gen.KernelIdeal.Skeleton
import proofs.«427924_j36180804502188_2_alg».proof.Proof.Gen.KernelIdeal.Launch
import proofs.«427924_j36180804502188_2_alg».proof.Proof.Gen.KernelIdeal.Points
import proofs.«427924_j36180804502188_2_alg».proof.Proof.Gen.KernelIdeal.Frame
import proofs.«427924_j36180804502188_2_alg».proof.Proof.Gen.ReferenceIdeal
import proofs.«427924_j36180804502188_2_alg».proof.Proof.Gen.Pre_finite_inputs
import proofs.«427924_j36180804502188_2_alg».proof.Proof.Gen.KernelIdeal.Value
import proofs.«427924_j36180804502188_2_alg».proof.Proof.RefRun
import proofs.«427924_j36180804502188_2_alg».proof.Proof.PreDecode
import proofs.«427924_j36180804502188_2_alg».proof.Proof.KernelArray
import proofs.«427924_j36180804502188_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the specification's result of those arguments: the
    kernel by its run read block by block, the reference by its run read stage by stage; the index words are below 64 by
    the precondition, on the kernel's memory and hence on the reference's. -/
theorem algebraic : Cert.algebraic_KernelIdeal_ReferenceIdeal := by
  intro m ρ m' ρ' hpre hagree
  have hP : ∀ (c : Dev Cert.KernelIdeal.nD) (i : Cert.KernelIdeal.S64x512x2.Idx),
      (m ((c.tc : Thread Cert.KernelIdeal.nD Cert.KernelIdeal.τ).loc Cert.KernelIdeal.main_arg3) i).toNat < 64 :=
    fun c i => Cert.GatherMean.Pre.pairs_lt _ _ _ _ (hpre c) i
  refine ⟨_, Cert.GatherMean.KernelArray.run m ρ hP, ?_⟩
  refine (θ_run Cert.ReferenceIdeal.defs _ _).mono (fun _ h c => ⟨(h c).1.trans ?_, (h c).2⟩)
    (Cert.ReferenceIdeal.RunP.run (F := Ideal) m' ρ')
  have hP' : ∀ i : Cert.ReferenceIdeal.S64x512x2.Idx,
      (m' ((c.tc : Thread Cert.ReferenceIdeal.nD Cert.ReferenceIdeal.τ).loc Cert.ReferenceIdeal.main_arg3) i).toNat < 64 := by
    rw [(hagree c).2.2.2]; exact hP c
  rw [Cert.GatherMean.Ref.reference_eq_result _ _ _ _ hP',
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
